-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x4096 : Shape := ⟨3, ![1, 4096, 4096]⟩
abbrev S1x4096 : Shape := ⟨2, ![1, 4096]⟩
abbrev S4096x11008 : Shape := ⟨2, ![4096, 11008]⟩
abbrev S11008x4096 : Shape := ⟨2, ![11008, 4096]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S11008x4096 : S_.BroadcastsInDim S11008x4096 (![] : Fin 0 → Fin S11008x4096.rank)
  reducesTo_S11008x4096_S_d0_1 : S11008x4096.ReducesTo [0, 1] S_

variable [Facts]

def fn_part1 {F : FTy → Type} [FloatOps F] (main_arg5 : FVec F S4096x11008 .f32) (main_arg6 : FVec F S4096x11008 .f32) (main_arg7 : FVec F S11008x4096 .f32) (main_v13 : IVec S_ 1) (main_v16 : IVec S11008x4096 1) : IVec S_ 1 :=
  let main_c_5 : IVec S_ 1 := constantI S_ 1 1#1
  let main_v17 : IVec S_ 1 := (fun x v => Host.reduce IntOp.andi x v reducesTo_S11008x4096_S_d0_1 h_S_) main_v16 main_c_5
  let main_v18 : IVec S_ 1 := andi main_v13 main_v17
  let main_v19 : FVec F S4096x11008 .f32 := Host.absf main_arg5
  let main_cst_6 : FVec F S_ .f32 := constant S_ .f32 0x7F800000#32
  let main_v20 : FVec F S4096x11008 .f32 := broadcastInDim S4096x11008 ![] bcast_S_S4096x11008 main_cst_6
  let main_v21 : IVec S4096x11008 1 := cmpf .olt main_v19 main_v20
  let main_c_7 : IVec S_ 1 := constantI S_ 1 1#1
  let main_v22 : IVec S_ 1 := (fun x v => Host.reduce IntOp.andi x v reducesTo_S4096x11008_S_d0_1 h_S_) main_v21 main_c_7
  let main_v23 : IVec S_ 1 := andi main_v18 main_v22
  let main_v24 : FVec F S4096x11008 .f32 := Host.absf main_arg6
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S11008x4096 .f32 := Host.absf main_arg7
  let main_cst_10 : FVec F S_ .f32 := constant S_ .f32 0x7F800000#32
  let main_v30 : FVec F S11008x4096 .f32 := broadcastInDim S11008x4096 ![] bcast_S_S11008x4096 main_cst_10
  let main_v31 : IVec S11008x4096 1 := cmpf .olt main_v29 main_v30
  let main_c_11 : IVec S_ 1 := constantI S_ 1 1#1
  let main_v32 : IVec S_ 1 := (fun x v => Host.reduce IntOp.andi x v reducesTo_S11008x4096_S_d0_1 h_S_) main_v31 main_c_11
  let main_v33 : IVec S_ 1 := andi main_v28 main_v32
  main_v33

def fn {F : FTy → Type} [FloatOps F] (main_arg0 : FVec F S1x4096x4096 .f32) (main_arg1 : IVec S1x4096 32) (main_arg2 : FVec F S4096x11008 .f32) (main_arg3 : FVec F S4096x11008 .f32) (main_arg4 : FVec F S11008x4096 .f32) (main_arg5 : FVec F S4096x11008 .f32) (main_arg6 : FVec F S4096x11008 .f32) (main_arg7 : FVec F S11008x4096 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  let main_v4 : FVec F S4096x11008 .f32 := Host.absf main_arg2
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096x11008 .f32 := Host.absf main_arg3
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  let main_v14 : FVec F S11008x4096 .f32 := Host.absf main_arg4
  let main_cst_4 : FVec F S_ .f32 := constant S_ .f32 0x7F800000#32
  let main_v15 : FVec F S11008x4096 .f32 := broadcastInDim S11008x4096 ![] bcast_S_S11008x4096 main_cst_4
  let main_v16 : IVec S11008x4096 1 := cmpf .olt main_v14 main_v15
  fn_part1 (F := F) main_arg5 main_arg6 main_arg7 main_v13 main_v16
-- ==== Kernel.lean ====
abbrev S1x4096x4096 : Shape := ⟨3, ![1, 4096, 4096]⟩
abbrev S1x4096 : Shape := ⟨2, ![1, 4096]⟩
abbrev S4096x11008 : Shape := ⟨2, ![4096, 11008]⟩
abbrev S11008x4096 : Shape := ⟨2, ![11008, 4096]⟩
abbrev S4096x4096 : Shape := ⟨2, ![4096, 4096]⟩
abbrev S1024x4096 : Shape := ⟨2, ![1024, 4096]⟩
abbrev S2048x4096 : Shape := ⟨2, ![2048, 4096]⟩
abbrev S1x2048x4096 : Shape := ⟨3, ![1, 2048, 4096]⟩
abbrev S2x2048x4096 : Shape := ⟨3, ![2, 2048, 4096]⟩
abbrev S1x4096x11008 : Shape := ⟨3, ![1, 4096, 11008]⟩
abbrev S2x4096x11008 : Shape := ⟨3, ![2, 4096, 11008]⟩
abbrev S1x11008x4096 : Shape := ⟨3, ![1, 11008, 4096]⟩
abbrev S2x11008x4096 : Shape := ⟨3, ![2, 11008, 4096]⟩
abbrev S1x512x4096 : Shape := ⟨3, ![1, 512, 4096]⟩
abbrev S1x4096x256 : Shape := ⟨3, ![1, 4096, 256]⟩
abbrev S1x256x4096 : Shape := ⟨3, ![1, 256, 4096]⟩
abbrev S512x4096 : Shape := ⟨2, ![512, 4096]⟩
abbrev S4096x256 : Shape := ⟨2, ![4096, 256]⟩
abbrev S512x256 : Shape := ⟨2, ![512, 256]⟩
abbrev S256x4096 : Shape := ⟨2, ![256, 4096]⟩

abbrev nBuf : Space → Nat
  | .hbm => 42
  | .vmem => 8
  | .smem => 0
  | _ => 0

abbrev bufTy : (tb : Table) → Fin (tcTables nBuf tb) → BufTy
  | .hbm, ⟨0, _⟩ => ⟨S1x4096x4096, .f32⟩
  | .hbm, ⟨1, _⟩ => ⟨S1x4096, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S4096x4096, .f32⟩
  | .hbm, ⟨9, _⟩ => ⟨S1024x4096, .f32⟩
  | .hbm, ⟨10, _⟩ => ⟨S1024x4096, .f32⟩
  | .hbm, ⟨11, _⟩ => ⟨S2048x4096, .f32⟩
  | .hbm, ⟨12, _⟩ => ⟨S1024x4096, .f32⟩
  | .hbm, ⟨13, _⟩ => ⟨S1024x4096, .f32⟩
  | .hbm, ⟨14, _⟩ => ⟨S2048x4096, .f32⟩
  | .hbm, ⟨15, _⟩ => ⟨S1x2048x4096, .f32⟩
  | .hbm, ⟨16, _⟩ => ⟨S1x2048x4096, .f32⟩
  | .hbm, ⟨17, _⟩ => ⟨S2x2048x4096, .f32⟩
  | .hbm, ⟨18, _⟩ => ⟨S2x2048x4096, .bf16⟩
  | .hbm, ⟨19, _⟩ => ⟨S1x4096x11008, .f32⟩
  | .hbm, ⟨20, _⟩ => ⟨S1x4096x11008, .f32⟩
  | .hbm, ⟨21, _⟩ => ⟨S2x4096x11008, .f32⟩
  | .hbm, ⟨22, _⟩ => ⟨S2x4096x11008, .bf16⟩
  | .hbm, ⟨23, _⟩ => ⟨S1x4096x11008, .f32⟩
  | .hbm, ⟨24, _⟩ => ⟨S1x4096x11008, .f32⟩
  | .hbm, ⟨25, _⟩ => ⟨S2x4096x11008, .f32⟩
  | .hbm, ⟨26, _⟩ => ⟨S2x4096x11008, .bf16⟩
  | .hbm, ⟨27, _⟩ => ⟨S1x11008x4096, .f32⟩
  | .hbm, ⟨28, _⟩ => ⟨S1x11008x4096, .f32⟩
  | .hbm, ⟨29, _⟩ => ⟨S2x11008x4096, .f32⟩
  | .hbm, ⟨30, _⟩ => ⟨S2x11008x4096, .bf16⟩
  | .hbm, ⟨31, _⟩ => ⟨S2x2048x4096, .f32⟩
  | .hbm, ⟨32, _⟩ => ⟨S1x2048x4096, .f32⟩
  | .hbm, ⟨33, _⟩ => ⟨S2048x4096, .f32⟩
  | .hbm, ⟨34, _⟩ => ⟨S1x2048x4096, .f32⟩
  | .hbm, ⟨35, _⟩ => ⟨S2048x4096, .f32⟩
  | .hbm, ⟨36, _⟩ => ⟨S1024x4096, .f32⟩
  | .hbm, ⟨37, _⟩ => ⟨S1024x4096, .f32⟩
  | .hbm, ⟨38, _⟩ => ⟨S1024x4096, .f32⟩
  | .hbm, ⟨39, _⟩ => ⟨S1024x4096, .f32⟩
  | .hbm, ⟨40, _⟩ => ⟨S4096x4096, .f32⟩
  | .hbm, ⟨41, _⟩ => ⟨S1x4096x4096, .f32⟩
  | .local _ .vmem, ⟨0, _⟩ => ⟨S1x512x4096, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x512x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨3, ![2, 4, 43], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

class Facts₀ : Prop where
  shapeCasts_S1x4096x4096_S4096x4096 : S1x4096x4096.ShapeCasts S4096x4096
  slices_S4096x4096_S1024x4096_0_0 : S4096x4096.Slices ![0, 0] S1024x4096
  slices_S4096x4096_S1024x4096_2048_0 : S4096x4096.Slices ![2048, 0] S1024x4096
  concatenates_S1024x4096_S1024x4096_S2048x4096_d0 : Shape.Concatenates [S1024x4096, S1024x4096] S2048x4096 0
  slices_S4096x4096_S1024x4096_1024_0 : S4096x4096.Slices ![1024, 0] S1024x4096
  slices_S4096x4096_S1024x4096_3072_0 : S4096x4096.Slices ![3072, 0] S1024x4096
  bcast_S2048x4096_S1x2048x4096_1_2 : S2048x4096.BroadcastsInDim S1x2048x4096 (![1, 2] : Fin 2 → Fin S1x2048x4096.rank)
  concatenates_S1x2048x4096_S1x2048x4096_S2x2048x4096_d0 : Shape.Concatenates [S1x2048x4096, S1x2048x4096] S2x2048x4096 0
  bitsLt_bf16_f32 : FTy.bits .bf16 < FTy.bits .f32
  bcast_S4096x11008_S1x4096x11008_1_2 : S4096x11008.BroadcastsInDim S1x4096x11008 (![1, 2] : Fin 2 → Fin S1x4096x11008.rank)
  concatenates_S1x4096x11008_S1x4096x11008_S2x4096x11008_d0 : Shape.Concatenates [S1x4096x11008, S1x4096x11008] S2x4096x11008 0
  bcast_S11008x4096_S1x11008x4096_1_2 : S11008x4096.BroadcastsInDim S1x11008x4096 (![1, 2] : Fin 2 → Fin S1x11008x4096.rank)
  concatenates_S1x11008x4096_S1x11008x4096_S2x11008x4096_d0 : Shape.Concatenates [S1x11008x4096, S1x11008x4096] S2x11008x4096 0
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S512x4096_S1x512x4096 : S512x4096.ShapeCasts S1x512x4096
  slices_S2x2048x4096_S1x2048x4096_0_0_0 : S2x2048x4096.Slices ![0, 0, 0] S1x2048x4096
  shapeCasts_S1x2048x4096_S2048x4096 : S1x2048x4096.ShapeCasts S2048x4096
  slices_S2x2048x4096_S1x2048x4096_1_0_0 : S2x2048x4096.Slices ![1, 0, 0] S1x2048x4096
  slices_S2048x4096_S1024x4096_0_0 : S2048x4096.Slices ![0, 0] S1024x4096
  slices_S2048x4096_S1024x4096_1024_0 : S2048x4096.Slices ![1024, 0] S1024x4096
  concatenates_S1024x4096_S1024x4096_S1024x4096_S1024x4096_S4096x4096_d0 : Shape.Concatenates [S1024x4096, S1024x4096, S1024x4096, S1024x4096] S4096x4096 0
  bcast_S4096x4096_S1x4096x4096_1_2 : S4096x4096.BroadcastsInDim S1x4096x4096 (![1, 2] : Fin 2 → Fin S1x4096x4096.rank)
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S2x2048x4096.size a
  hwx0_0 : ∀ i : grid0.Coords, EltTy.bits .bf16 = 32 ∨ (Rect.block (s := S2x2048x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S2x4096x11008.size a
  hwx0_1 : ∀ i : grid0.Coords, EltTy.bits .bf16 = 32 ∨ (Rect.block (s := S2x4096x11008) S1x4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S2x4096x11008.size a
  hwx0_2 : ∀ i : grid0.Coords, EltTy.bits .bf16 = 32 ∨ (Rect.block (s := S2x4096x11008) S1x4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S2x11008x4096.size a
  hwx0_3 : ∀ i : grid0.Coords, EltTy.bits .bf16 = 32 ∨ (Rect.block (s := S2x11008x4096) S1x256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512x4096.size a ≤ S2x2048x4096.size a
  hwx0_4 : ∀ i : grid0.Coords, EltTy.bits .f32 = 32 ∨ (Rect.block (s := S2x2048x4096) S1x512x4096.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v10) S1x512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x512x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x4096x4096 : Shape := ⟨3, ![1, 4096, 4096]⟩
abbrev S1x4096 : Shape := ⟨2, ![1, 4096]⟩
abbrev S4096x11008 : Shape := ⟨2, ![4096, 11008]⟩
abbrev S11008x4096 : Shape := ⟨2, ![11008, 4096]⟩
abbrev S1x1024x4096 : Shape := ⟨3, ![1, 1024, 4096]⟩
abbrev S1x1024x11008 : Shape := ⟨3, ![1, 1024, 11008]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1x4096, .i32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096x11008, .f32⟩
  | .hbm, ⟨6, _⟩ => ⟨S4096x11008, .f32⟩
  | .hbm, ⟨7, _⟩ => ⟨S11008x4096, .f32⟩
  | .hbm, ⟨8, _⟩ => ⟨S1x1024x4096, .f32⟩
  | .hbm, ⟨9, _⟩ => ⟨S1x1024x11008, .f32⟩
  | .hbm, ⟨10, _⟩ => ⟨S1x1024x11008, .f32⟩
  | .hbm, ⟨11, _⟩ => ⟨S1x1024x11008, .f32⟩
  | .hbm, ⟨12, _⟩ => ⟨S_, .f32⟩
  | .hbm, ⟨13, _⟩ => ⟨S1x1024x11008, .f32⟩
  | .hbm, ⟨14, _⟩ => ⟨S1x1024x11008, .f32⟩
  | .hbm, ⟨15, _⟩ => ⟨S_, .f32⟩
  | .hbm, ⟨16, _⟩ => ⟨S1x1024x11008, .f32⟩
  | .hbm, ⟨17, _⟩ => ⟨S1x1024x11008, .f32⟩
  | .hbm, ⟨18, _⟩ => ⟨S1x1024x11008, .f32⟩
  | .hbm, ⟨19, _⟩ => ⟨S1x1024x11008, .f32⟩
  | .hbm, ⟨20, _⟩ => ⟨S1x1024x11008, .f32⟩
  | .hbm, ⟨21, _⟩ => ⟨S1x1024x4096, .f32⟩
  | .hbm, ⟨22, _⟩ => ⟨S1x1024x4096, .f32⟩
  | .hbm, ⟨23, _⟩ => ⟨S1x1024x11008, .f32⟩
  | .hbm, ⟨24, _⟩ => ⟨S1x1024x11008, .f32⟩
  | .hbm, ⟨25, _⟩ => ⟨S1x1024x11008, .f32⟩
  | .hbm, ⟨26, _⟩ => ⟨S_, .f32⟩
  | .hbm, ⟨27, _⟩ => ⟨S1x1024x11008, .f32⟩
  | .hbm, ⟨28, _⟩ => ⟨S1x1024x11008, .f32⟩
  | .hbm, ⟨29, _⟩ => ⟨S_, .f32⟩
  | .hbm, ⟨30, _⟩ => ⟨S1x1024x11008, .f32⟩
  | .hbm, ⟨31, _⟩ => ⟨S1x1024x11008, .f32⟩
  | .hbm, ⟨32, _⟩ => ⟨S1x1024x11008, .f32⟩
  | .hbm, ⟨33, _⟩ => ⟨S1x1024x11008, .f32⟩
  | .hbm, ⟨34, _⟩ => ⟨S1x1024x11008, .f32⟩
  | .hbm, ⟨35, _⟩ => ⟨S1x1024x4096, .f32⟩
  | .hbm, ⟨36, _⟩ => ⟨S1x1024x4096, .f32⟩
  | .hbm, ⟨37, _⟩ => ⟨S1x1024x11008, .f32⟩
  | .hbm, ⟨38, _⟩ => ⟨S1x1024x11008, .f32⟩
  | .hbm, ⟨39, _⟩ => ⟨S1x1024x11008, .f32⟩
  | .hbm, ⟨40, _⟩ => ⟨S_, .f32⟩
  | .hbm, ⟨41, _⟩ => ⟨S1x1024x11008, .f32⟩
  | .hbm, ⟨42, _⟩ => ⟨S1x1024x11008, .f32⟩
  | .hbm, ⟨43, _⟩ => ⟨S_, .f32⟩
  | .hbm, ⟨44, _⟩ => ⟨S1x1024x11008, .f32⟩
  | .hbm, ⟨45, _⟩ => ⟨S1x1024x11008, .f32⟩
  | .hbm, ⟨46, _⟩ => ⟨S1x1024x11008, .f32⟩
  | .hbm, ⟨47, _⟩ => ⟨S1x1024x11008, .f32⟩
  | .hbm, ⟨48, _⟩ => ⟨S1x1024x11008, .f32⟩
  | .hbm, ⟨49, _⟩ => ⟨S1x1024x4096, .f32⟩
  | .hbm, ⟨50, _⟩ => ⟨S1x1024x4096, .f32⟩
  | .hbm, ⟨51, _⟩ => ⟨S1x1024x11008, .f32⟩
  | .hbm, ⟨52, _⟩ => ⟨S1x1024x11008, .f32⟩
  | .hbm, ⟨53, _⟩ => ⟨S1x1024x11008, .f32⟩
  | .hbm, ⟨54, _⟩ => ⟨S_, .f32⟩
  | .hbm, ⟨55, _⟩ => ⟨S1x1024x11008, .f32⟩
  | .hbm, ⟨56, _⟩ => ⟨S1x1024x11008, .f32⟩
  | .hbm, ⟨57, _⟩ => ⟨S_, .f32⟩
  | .hbm, ⟨58, _⟩ => ⟨S1x1024x11008, .f32⟩
  | .hbm, ⟨59, _⟩ => ⟨S1x1024x11008, .f32⟩
  | .hbm, ⟨60, _⟩ => ⟨S1x1024x11008, .f32⟩
  | .hbm, ⟨61, _⟩ => ⟨S1x1024x11008, .f32⟩
  | .hbm, ⟨62, _⟩ => ⟨S1x1024x11008, .f32⟩
  | .hbm, ⟨63, _⟩ => ⟨S1x1024x4096, .f32⟩
  | .hbm, ⟨64, _⟩ => ⟨S1x4096x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_v0 : Ref sig .tc := ⟨.hbm, 38, rfl⟩
abbrev main_call2_v1 : Ref sig .tc := ⟨.hbm, 39, rfl⟩
abbrev main_call2_cst : Ref sig .tc := ⟨.hbm, 40, rfl⟩
abbrev main_call2_v2 : Ref sig .tc := ⟨.hbm, 41, rfl⟩
abbrev main_call2_v3 : Ref sig .tc := ⟨.hbm, 42, rfl⟩
abbrev main_call2_cst_0 : Ref sig .tc := ⟨.hbm, 43, rfl⟩
abbrev main_call2_v4 : Ref sig .tc := ⟨.hbm, 44, rfl⟩
abbrev main_call2_v5 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩

abbrev nD : Nat := 1
abbrev τ : Topo := Topo.v7x

variable {F : FTy → Type} [FloatOps F]

class Facts₀ : Prop where
  slices_S1x4096x4096_S1x1024x4096_0_0_0 : S1x4096x4096.Slices ![0, 0, 0] S1x1024x4096
  bcast_S_S1x1024x11008 : S_.BroadcastsInDim S1x1024x11008 (![] : Fin 0 → Fin S1x1024x11008.rank)
  slices_S1x4096x4096_S1x1024x4096_0_1024_0 : S1x4096x4096.Slices ![0, 1024, 0] S1x1024x4096
  slices_S1x4096x4096_S1x1024x4096_0_2048_0 : S1x4096x4096.Slices ![0, 2048, 0] S1x1024x4096
  slices_S1x4096x4096_S1x1024x4096_0_3072_0 : S1x4096x4096.Slices ![0, 3072, 0] S1x1024x4096
  concatenates_S1x1024x4096_S1x1024x4096_S1x1024x4096_S1x1024x4096_S1x4096x4096_d1 : Shape.Concatenates [S1x1024x4096, S1x1024x4096, S1x1024x4096, S1x1024x4096] S1x4096x4096 1
  dot_S1x1024x4096_S4096x11008_S1x1024x11008_2_0_01_1_n_n_wf : DotDims.WF S1x1024x4096 S4096x11008 S1x1024x11008 [2] [0] [0, 1] [1] [] []
  dot_S1x1024x11008_S11008x4096_S1x1024x4096_2_0_01_1_n_n_wf : DotDims.WF S1x1024x11008 S11008x4096 S1x1024x4096 [2] [0] [0, 1] [1] [] []

variable [Facts₀]

def dot_S1x1024x4096_S4096x11008_S1x1024x11008_2_0_01_1_n_n : DotDims S1x1024x4096 S4096x11008 S1x1024x11008 where
  lhsContracting := [2]
  rhsContracting := [0]
  lhsNonContracting := [0, 1]
  rhsNonContracting := [1]
  lhsBatch := []
  rhsBatch := []
  wf := dot_S1x1024x4096_S4096x11008_S1x1024x11008_2_0_01_1_n_n_wf
def dot_S1x1024x11008_S11008x4096_S1x1024x4096_2_0_01_1_n_n : DotDims S1x1024x11008 S11008x4096 S1x1024x4096 where
  lhsContracting := [2]
  rhsContracting := [0]
  lhsNonContracting := [0, 1]
  rhsNonContracting := [1]
  lhsBatch := []
  rhsBatch := []
  wf := dot_S1x1024x11008_S11008x4096_S1x1024x4096_2_0_01_1_n_n_wf

class Facts : Prop extends Facts₀ where

variable [Facts]
-- ==== Proof.KBase.lean ====
/-
  The program around its one tiled region, for any float instance.

  The program is: 23 host lines that gather the even and odd quarters of the token rows into a two-sided stack and
  stack the two weight triples; the tiled region, a grid of 2 sides x 4 row tiles x 43 hidden-unit blocks whose
  output tile is zeroed at hidden block 0, added to at every block, and written back after block 42; and 10 host
  lines that scatter the stacked result back into sequence order. Stated here: what every buffer holds when the
  region is entered, that the lines after it touch no array the region stages and allocate nothing, that no line
  writes an argument, what block of its array each window reads at a grid point, and at which points the body's
  reset branch is taken (hidden block 0, i.e. the points divisible by 43).
-/
import proofs.«131776_j90975997264556_1_alg».proof.Proof.Gen.Kernel.Launch
import proofs.«131776_j90975997264556_1_alg».proof.Proof.Gen.Kernel.Skeleton
import proofs.«131776_j90975997264556_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What device c's buffers hold when the region is entered: the launch memory after the 23 lines before it. -/
abbrev entry0 (c : Dev nD) : Valuation τ sig (Elt F) := StableHlo.after (List.flatten [hostOps0]) (fun b => m (c, b))
/-- The same at one reference. -/
abbrev entry (c : Dev nD) (b : Ref sig .tc) : Buf (Elt F) ((c : Thread nD τ).loc b) := entry0 m c (Proc.devRef .tc b)

theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- The program is the lines before, the region, the lines after; run up to the region it leaves the later lines
    as the continuation. -/
theorem main_split (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The lines after the region touch only the region's arrays and the buffers that bypass it. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem post_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop

/-- Each writes only its own result, which is none of the five arrays the region stages. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments are written by no line -/

/-- The eight arguments. -/
abbrev args : List (Ref sig .tc) := [main_arg0, main_arg1, main_arg2, main_arg3, main_arg4, main_arg5, main_arg6, main_arg7]

theorem pre_spares_args : ∀ b ∈ args, ∀ op ∈ (hostOps0 : List (HloOp τ sig (Elt F))), Proc.devRef .tc b ∉ op.writes := by
  intro b hb
  simp only [args, List.mem_cons, List.mem_nil_iff, or_false] at hb
  refine List.forall_iff_forall_mem.mp ?_
  rcases hb with rfl | rfl | rfl | rfl | rfl | rfl | rfl | rfl <;>
    (simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
     repeat' apply And.intro
     all_goals exact StableHlo.devRef_ne_of_ne (by decide))

theorem post_spares_args : ∀ b ∈ args, ∀ op ∈ (hostOps1 : List (HloOp τ sig (Elt F))), Proc.devRef .tc b ∉ op.writes := by
  intro b hb
  simp only [args, List.mem_cons, List.mem_nil_iff, or_false] at hb
  refine List.forall_iff_forall_mem.mp ?_
  rcases hb with rfl | rfl | rfl | rfl | rfl | rfl | rfl | rfl <;>
    (simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
     repeat' apply And.intro
     all_goals exact StableHlo.devRef_ne_of_ne (by decide))

theorem args_not_staged : ∀ b ∈ args, ∀ w, Pipeline.arrRef spec0 w ≠ b := by
  intro b hb
  simp only [args, List.mem_cons, List.mem_nil_iff, or_false] at hb
  rcases hb with rfl | rfl | rfl | rfl | rfl | rfl | rfl | rfl <;> decide

theorem args_bypass : ∀ b ∈ args, b ∈ Pipeline.restRefs sig spec0 := by
  intro b hb
  simp only [args, List.mem_cons, List.mem_nil_iff, or_false] at hb
  rcases hb with rfl | rfl | rfl | rfl | rfl | rfl | rfl | rfl <;>
    exact Pipeline.mem_restRefs_of _ (by decide) (by decide)

/-- So the region finds each argument as launched, -/
theorem entry_arg (c : Dev nD) (b : Ref sig .tc) (hb : b ∈ args) : entry m c b = m ((c : Thread nD τ).loc b) :=
  StableHlo.after_of_forall_not_mem (b := Proc.devRef .tc b) _ _ (by
    simp only [List.flatten_cons, List.flatten_nil, List.append_nil]
    exact pre_spares_args b hb)

/-- and each argument ends as launched, whatever the region's proof data are. -/
theorem exit_arg (dats : (p : Fin 1) → (c : Dev nD) → Dat τ (Elt F) Unit ℕ (UR sig nD τ) ℕ (cfgs p) c) (c : Dev nD)
    (b : Ref sig .tc) (hb : b ∈ args) :
    Pipeline.afterTail₀ cfgs dats 0 (entry0 m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact post_spares_args b hb),
    Pipeline.withArrays_of_ne _ c (entry0 m c) _ b (args_not_staged b hb)]
  exact entry_arg m c b hb

/-! ## The windows' blocks -/

/-- Window w's block at grid point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds its block at every point, whether fetched there or left from the point
    before (the block index has not moved then), for any proof data over the entry contents whose body leaves the
    inputs in place. One statement per input window. -/
theorem in0_of {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem in1_of {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem in2_of {c : Dev nD} (dat : Dat τ (Elt F) Unit ℕ (UR sig nD τ) ℕ cfg0 c) (hA : dat.A 2 = entry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem in3_of {c : Dev nD} (dat : Dat τ (Elt F) Unit ℕ (UR sig nD τ) ℕ cfg0 c) (hA : dat.A 3 = entry m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The frame claim's post from a frame run -/

/-- A run of the program to the frame post — every staged array at what the proof data compute, every other
    buffer as the lines after the region leave it — leaves the eight arguments as launched. -/
theorem args_kept_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD, ∀ b ∈ args,
      r.2.mem ((c.tc : Thread nD τ).loc b) = m ((c.tc : Thread nD τ).loc b)) :=
  (θ_run defs _ _).mono (fun _ h c b hb => ((h c).2 b (args_bypass b hb)).trans (exit_arg m dats c b hb)) h

/-! ## The body's reset branch -/

/-- The condition of the body's one branch, from the grid coordinates: hidden block 0. -/
abbrev isFirst (i : grid0.Coords) : Prop :=
  (Scalar.cmpi .ne (Scalar.extui (Scalar.cmpi .eq (BitVec.ofNat 32 (i 2).val) 0#32)) 0#32) = 1#1
/-- It holds exactly at the points divisible by 43. -/
theorem isFirst_iff : ∀ t : Fin cfg0.N, isFirst (grid0.coords t) ↔ t.val % 43 = 0 :=
  (by decide +kernel : ∀ t : Fin grid0.N, isFirst (grid0.coords t) ↔ t.val % 43 = 0)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The staging memrefs at a point -/

/-- One staging buffer of the output window, through which its contents are stated. -/
abbrev outView : View sig .tc .vmem S1x512x4096 .f32 := (Memref.whole cc0_stg4_0 : Memref sig .tc .vmem S1x512x4096 .f32).view
abbrev sm0 (t : Fin cfg0.N) : Memref sig .tc .vmem S1x512x4096 .bf16 := win0_0.stage (cfg0.slots t 0)
abbrev sw0 (t : Fin cfg0.N) : (sm0 t).IsWhole := hstage0_0 ((cfg0.slots t 0).cast nbuf0_0)
abbrev sm1 (t : Fin cfg0.N) : Memref sig .tc .vmem S1x4096x256 .bf16 := win0_1.stage (cfg0.slots t 1)
abbrev sw1 (t : Fin cfg0.N) : (sm1 t).IsWhole := hstage0_1 ((cfg0.slots t 1).cast nbuf0_1)
abbrev sm2 (t : Fin cfg0.N) : Memref sig .tc .vmem S1x4096x256 .bf16 := win0_2.stage (cfg0.slots t 2)
abbrev sw2 (t : Fin cfg0.N) : (sm2 t).IsWhole := hstage0_2 ((cfg0.slots t 2).cast nbuf0_2)
abbrev sm3 (t : Fin cfg0.N) : Memref sig .tc .vmem S1x256x4096 .bf16 := win0_3.stage (cfg0.slots t 3)
abbrev sw3 (t : Fin cfg0.N) : (sm3 t).IsWhole := hstage0_3 ((cfg0.slots t 3).cast nbuf0_3)
abbrev sm4 (t : Fin cfg0.N) : Memref sig .tc .vmem S1x512x4096 .f32 := win0_4.stage (cfg0.slots t 4)
abbrev sw4 (t : Fin cfg0.N) : (sm4 t).IsWhole := hstage0_4 ((cfg0.slots t 4).cast nbuf0_4)

end Cert.Kernel.Fr

end
-- ==== Proof.KRunReset.lean ====
/-
  The body at a point of hidden block 0, for any float instance: on whole staging buffers — the four inputs at their
  blocks x0 … x3, the output tile at anything — it runs to the end, leaves the inputs as they were, and leaves in the
  output tile what its two stores wrote, the zero tile first and then the zero tile read back plus this block's product.
  The list of stored pieces is found by running the body; what it amounts to as a value is read elsewhere.
-/
import proofs.«131776_j90975997264556_1_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stored pieces (last first) and the body's triple, at a point where the reset branch is taken. -/
noncomputable def runReset (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : isFirst i)
    (x0 : Vec F S1x512x4096 .bf16) (x1 x2 : Vec F S1x4096x256 .bf16) (x3 : Vec F S1x256x4096 .bf16) :
    { L : List (View.Piece (Elt F) S1x512x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L)) -∗ K ⟨⟩))
          ⊢ wp frame (wpE (defs₀ (F := F)) Variants.none c none) E (cc0__mlp_kernel i a0 h0 a1 h1 a2 h2 a3 h3 a4 h4) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h0.eq_unread hf0; obtain rfl := h1.eq_unread hf1; obtain rfl := h2.eq_unread hf2; obtain rfl := h3.eq_unread hf3
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

end Cert.Kernel.Fr

end
-- ==== Proof.KRunAcc.lean ====
/-
  The body at a point of a later hidden block, for any float instance: on whole staging buffers — the four inputs at
  their blocks x0 … x3, the output tile at the running total xo the point before left — it runs to the end, leaves the
  inputs as they were, and leaves in the output tile what its one store wrote: the running total plus this block's
  product. The stored piece is found by running the body.
-/
import proofs.«131776_j90975997264556_1_alg».proof.Proof.KRunReset

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stored pieces and the body's triple, at a point where the reset branch is not taken. -/
noncomputable def runAcc (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : ¬isFirst i)
    (x0 : Vec F S1x512x4096 .bf16) (x1 x2 : Vec F S1x4096x256 .bf16) (x3 : Vec F S1x256x4096 .bf16) (xo : Vec F S1x512x4096 .f32) :
    { L : List (View.Piece (Elt F) S1x512x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L)) -∗ K ⟨⟩))
          ⊢ wp frame (wpE (defs₀ (F := F)) Variants.none c none) E (cc0__mlp_kernel i a0 h0 a1 h1 a2 h2 a3 h3 a4 h4) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h0.eq_unread hf0; obtain rfl := h1.eq_unread hf1; obtain rfl := h2.eq_unread hf2; obtain rfl := h3.eq_unread hf3
    obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

end Cert.Kernel.Fr

end
-- ==== Proof.KFrame.lean ====
/-
  The frame of the program, for any float instance: every weakly fair execution terminates without a fault and
  leaves the eight arguments as launched.

  The output tile after grid point n is defined by recursion on n: at a point of hidden block 0 it is what the
  reset case's stores leave (a function of the point's four input blocks only); at any other point it is what the
  accumulate case's store leaves over the tile of the point before — the tile stays in its staging buffer between
  them, because it is written back only after hidden block 42 and the next point then starts a new tile at hidden
  block 0. With this as the region's proof data the body's triple at each point is the matching case's run, and the
  library's launch of a region followed by host lines gives the run of the whole program.
-/
import proofs.«131776_j90975997264556_1_alg».proof.Proof.KRunAcc

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output tile -/

/-- The reset case's two stores tile the output buffer. -/
theorem coverReset (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : isFirst i)
    (x0 : Vec F S1x512x4096 .bf16) (x1 x2 : Vec F S1x4096x256 .bf16) (x3 : Vec F S1x256x4096 .bf16) (y : S1x512x4096.Idx) :
    ∃ pc ∈ (runReset c i a0 h0 a1 h1 a2 h2 a3 h3 a4 h4 hc x0 x1 x2 x3).1, y ∈ pc.1.set :=
  View.cover_of_tiledL (runReset c i a0 h0 a1 h1 a2 h2 a3 h3 a4 h4 hc x0 x1 x2 x3).1 S1x512x4096.size (by sl_kernel_rfl) y

/-- What the reset case leaves: its pieces read back. -/
def tileReset (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : isFirst i)
    (x0 : Vec F S1x512x4096 .bf16) (x1 x2 : Vec F S1x4096x256 .bf16) (x3 : Vec F S1x256x4096 .bf16) : Vec F S1x512x4096 .f32 :=
  outView.read (Elt F) (outView.writes (Elt F) outView.junk (runReset c i a0 h0 a1 h1 a2 h2 a3 h3 a4 h4 hc x0 x1 x2 x3).1)

/-- The accumulate case's one store tiles the output buffer. -/
theorem coverAcc (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : ¬isFirst i)
    (x0 : Vec F S1x512x4096 .bf16) (x1 x2 : Vec F S1x4096x256 .bf16) (x3 : Vec F S1x256x4096 .bf16) (xo : Vec F S1x512x4096 .f32) (y : S1x512x4096.Idx) :
    ∃ pc ∈ (runAcc c i a0 h0 a1 h1 a2 h2 a3 h3 a4 h4 hc x0 x1 x2 x3 xo).1, y ∈ pc.1.set :=
  View.cover_of_tiledL (runAcc c i a0 h0 a1 h1 a2 h2 a3 h3 a4 h4 hc x0 x1 x2 x3 xo).1 S1x512x4096.size (by sl_kernel_rfl) y

/-- What the accumulate case leaves over the running total xo: its piece read back. -/
def tileAcc (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : ¬isFirst i)
    (x0 : Vec F S1x512x4096 .bf16) (x1 x2 : Vec F S1x4096x256 .bf16) (x3 : Vec F S1x256x4096 .bf16) (xo : Vec F S1x512x4096 .f32) : Vec F S1x512x4096 .f32 :=
  outView.read (Elt F) (outView.writes (Elt F) outView.junk (runAcc c i a0 h0 a1 h1 a2 h2 a3 h3 a4 h4 hc x0 x1 x2 x3 xo).1)

/-! ## The output tile after each point -/

/-- The output tile after the body at position n. -/
def tileAt (c : Dev nD) : (n : ℕ) → n < cfg0.N → Vec F S1x512x4096 .f32
  | 0, hn => tileReset c (grid0.coords ⟨0, hn⟩) (sm0 ⟨0, hn⟩) (sw0 ⟨0, hn⟩) (sm1 ⟨0, hn⟩) (sw1 ⟨0, hn⟩) (sm2 ⟨0, hn⟩) (sw2 ⟨0, hn⟩) (sm3 ⟨0, hn⟩) (sw3 ⟨0, hn⟩) (sm4 ⟨0, hn⟩) (sw4 ⟨0, hn⟩) ((isFirst_iff ⟨0, hn⟩).mpr (Nat.zero_mod _)) (blk m c 0 ⟨0, hn⟩) (blk m c 1 ⟨0, hn⟩) (blk m c 2 ⟨0, hn⟩) (blk m c 3 ⟨0, hn⟩)
  | n + 1, hn =>
    if h : (n + 1) % 43 = 0 then
      tileReset c (grid0.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) ((isFirst_iff ⟨n + 1, hn⟩).mpr h) (blk m c 0 ⟨n + 1, hn⟩) (blk m c 1 ⟨n + 1, hn⟩) (blk m c 2 ⟨n + 1, hn⟩) (blk m c 3 ⟨n + 1, hn⟩)
    else
      tileAcc c (grid0.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) (fun hh => h ((isFirst_iff ⟨n + 1, hn⟩).mp hh)) (blk m c 0 ⟨n + 1, hn⟩) (blk m c 1 ⟨n + 1, hn⟩) (blk m c 2 ⟨n + 1, hn⟩) (blk m c 3 ⟨n + 1, hn⟩) (tileAt c n (Nat.lt_of_succ_lt hn))

theorem tileAt_reset (c : Dev nD) (t : Fin cfg0.N) (h : t.val % 43 = 0) :
    tileAt m c t.val t.isLt = tileReset c (grid0.coords t) (sm0 t) (sw0 t) (sm1 t) (sw1 t) (sm2 t) (sw2 t) (sm3 t) (sw3 t) (sm4 t) (sw4 t) ((isFirst_iff t).mpr h) (blk m c 0 t) (blk m c 1 t) (blk m c 2 t) (blk m c 3 t) := by
  obtain ⟨n, hn⟩ := t
  cases n with
  | zero => exact rfl
  | succ n => exact (dif_pos h).trans rfl

theorem tileAt_acc (c : Dev nD) (t : Fin cfg0.N) (h : ¬t.val % 43 = 0) :
    tileAt m c t.val t.isLt = tileAcc c (grid0.coords t) (sm0 t) (sw0 t) (sm1 t) (sw1 t) (sm2 t) (sw2 t) (sm3 t) (sw3 t) (sm4 t) (sw4 t) (fun hh => h ((isFirst_iff t).mp hh)) (blk m c 0 t) (blk m c 1 t) (blk m c 2 t) (blk m c 3 t)
      (tileAt m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The region's proof data -/

/-- On device c: the arrays as the region finds them; after the body at point t each input buffer at its block and
    the output buffer at the tile of that point; the invariant the scoped rest and the random-number register; nothing
    owed; full shares. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => tileAt m c t.val t.isLt
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = tileAt m c t.val t.isLt := by dsimp only [dats]

theorem before0 (c : Dev nD) (t : Fin cfg0.N) (d) : (dats m 0 c).before 0 t d = blk m c 0 t :=
  in0_of m (dats m 0 c) (A_eq m c 0) (after0 m c) t d
theorem before1 (c : Dev nD) (t : Fin cfg0.N) (d) : (dats m 0 c).before 1 t d = blk m c 1 t :=
  in1_of m (dats m 0 c) (A_eq m c 1) (after1 m c) t d
theorem before2 (c : Dev nD) (t : Fin cfg0.N) (d) : (dats m 0 c).before 2 t d = blk m c 2 t :=
  in2_of m (dats m 0 c) (A_eq m c 2) (after2 m c) t d
theorem before3 (c : Dev nD) (t : Fin cfg0.N) (d) : (dats m 0 c).before 3 t d = blk m c 3 t :=
  in3_of m (dats m 0 c) (A_eq m c 3) (after3 m c) t d

/-- At a point of a later hidden block the output buffer holds the tile of the point before: the point is not the
    first, and the buffer was not written back in between (that happens only after hidden block 42, and the point
    after such a one is at hidden block 0). -/
theorem before4_acc (c : Dev nD) (t : Fin cfg0.N) (h : ¬t.val % 43 = 0) (d) :
    (dats m 0 c).before 4 t d = tileAt m c (t.val - 1) (Nat.lt_of_le_of_lt (Nat.sub_le _ _) t.isLt) := by
  have hN : t.val < 344 := lt_of_lt_of_eq t.isLt (show cfg0.N = 344 from N_0)
  rw [Dat.before_out_kept _ 4 rfl t (by omega) (Bool.eq_false_iff.mpr fun hh => by have := (flush0_4 _).mp hh; dsimp only at this; omega)
    (fun _ => rfl) (fun _ _ => rfl)]
  dsimp only [dats]

/-! ## The body at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t))

set_option maxHeartbeats 1600000 in
/-- The body at any point: the input buffers hold their blocks; the point's hidden block says which case it is in,
    and in the accumulate case the output buffer holds the tile of the point before; so that case's run applies,
    and the tile it leaves is the stores' pieces read back, since they cover the buffer. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h : t.val % 43 = 0
  · rw [tileAt_reset m c t h]
    unfold tileReset
    iintro ⟨HΦ, Ho, ⟨%d0, H0⟩, ⟨%d1, H1⟩, ⟨%d2, H2⟩, ⟨%d3, H3⟩, ⟨%d4, H4⟩⟩
    iapply ((runReset c (grid0.coords t) _ _ _ _ _ _ _ _ _ _ ((isFirst_iff t).mpr h) (blk m c 0 t) (blk m c 1 t) (blk m c 2 t) (blk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset c _ _ _ _ _ _ _ _ _ _ _ _ _ _ _ _)
  · rw [tileAt_acc m c t h]
    simp only [before4_acc m c t h]
    unfold tileAcc
    iintro ⟨HΦ, Ho, ⟨%d0, H0⟩, ⟨%d1, H1⟩, ⟨%d2, H2⟩, ⟨%d3, H3⟩, ⟨%d4, H4⟩⟩
    iapply ((runAcc c (grid0.coords t) _ _ _ _ _ _ _ _ _ _ (fun hh => h ((isFirst_iff t).mp hh)) (blk m c 0 t) (blk m c 1 t) (blk m c 2 t) (blk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverAcc c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final state
    has each staged array at what the proof data compute and every other buffer as the lines after the region
    leave it. -/
theorem run_main : θ_run defs (onTc (τ := τ) (main (F := F))) (s₀ m ρ)
    (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := post_sub) (hfresh := post_alloc) (hkeep := post_keeps)
    (hmain := main_split m Variants.none) (hA := A_eq m) (hΦ := fun _ _ => rfl)

/-- The frame: the program runs to the end and its eight arguments end as launched. -/
theorem frame : θ_run defs (onTc (τ := τ) (main (F := F))) ⟨m, fun _ => 0, ρ⟩ (fun r => ∀ c : Dev nD, ∀ b ∈ args,
      r.2.mem ((c.tc : Thread nD τ).loc b) = m ((c.tc : Thread nD τ).loc b)) :=
  args_kept_of_run m ρ (dats m) (run_main m ρ)

end Cert.Kernel.Fr

end
-- ==== Proof.KIBase.lean ====
/-
  The program around its one tiled region, for any float instance.

  The program is: 23 host lines that gather the even and odd quarters of the token rows into a two-sided stack and
  stack the two weight triples; the tiled region, a grid of 2 sides x 4 row tiles x 43 hidden-unit blocks whose
  output tile is zeroed at hidden block 0, added to at every block, and written back after block 42; and 10 host
  lines that scatter the stacked result back into sequence order. Stated here: what every buffer holds when the
  region is entered, that the lines after it touch no array the region stages and allocate nothing, that no line
  writes an argument, what block of its array each window reads at a grid point, and at which points the body's
  reset branch is taken (hidden block 0, i.e. the points divisible by 43).
-/
import proofs.«131776_j90975997264556_1_alg».proof.Proof.Gen.KernelIdeal.Launch
import proofs.«131776_j90975997264556_1_alg».proof.Proof.Gen.KernelIdeal.Skeleton
import proofs.«131776_j90975997264556_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- What device c's buffers hold when the region is entered: the launch memory after the 23 lines before it. -/
abbrev entry0 (c : Dev nD) : Valuation τ sig (Elt F) := StableHlo.after (List.flatten [hostOps0]) (fun b => m (c, b))
/-- The same at one reference. -/
abbrev entry (c : Dev nD) (b : Ref sig .tc) : Buf (Elt F) ((c : Thread nD τ).loc b) := entry0 m c (Proc.devRef .tc b)

theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- The program is the lines before, the region, the lines after; run up to the region it leaves the later lines
    as the continuation. -/
theorem main_split (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The lines after the region touch only the region's arrays and the buffers that bypass it. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem post_alloc : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop

/-- Each writes only its own result, which is none of the five arrays the region stages. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The arguments are written by no line -/

/-- The eight arguments. -/
abbrev args : List (Ref sig .tc) := [main_arg0, main_arg1, main_arg2, main_arg3, main_arg4, main_arg5, main_arg6, main_arg7]

theorem pre_spares_args : ∀ b ∈ args, ∀ op ∈ (hostOps0 : List (HloOp τ sig (Elt F))), Proc.devRef .tc b ∉ op.writes := by
  intro b hb
  simp only [args, List.mem_cons, List.mem_nil_iff, or_false] at hb
  refine List.forall_iff_forall_mem.mp ?_
  rcases hb with rfl | rfl | rfl | rfl | rfl | rfl | rfl | rfl <;>
    (simp only [hostOps0, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
     repeat' apply And.intro
     all_goals exact StableHlo.devRef_ne_of_ne (by decide))

theorem post_spares_args : ∀ b ∈ args, ∀ op ∈ (hostOps1 : List (HloOp τ sig (Elt F))), Proc.devRef .tc b ∉ op.writes := by
  intro b hb
  simp only [args, List.mem_cons, List.mem_nil_iff, or_false] at hb
  refine List.forall_iff_forall_mem.mp ?_
  rcases hb with rfl | rfl | rfl | rfl | rfl | rfl | rfl | rfl <;>
    (simp only [hostOps1, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
     repeat' apply And.intro
     all_goals exact StableHlo.devRef_ne_of_ne (by decide))

theorem args_not_staged : ∀ b ∈ args, ∀ w, Pipeline.arrRef spec0 w ≠ b := by
  intro b hb
  simp only [args, List.mem_cons, List.mem_nil_iff, or_false] at hb
  rcases hb with rfl | rfl | rfl | rfl | rfl | rfl | rfl | rfl <;> decide

theorem args_bypass : ∀ b ∈ args, b ∈ Pipeline.restRefs sig spec0 := by
  intro b hb
  simp only [args, List.mem_cons, List.mem_nil_iff, or_false] at hb
  rcases hb with rfl | rfl | rfl | rfl | rfl | rfl | rfl | rfl <;>
    exact Pipeline.mem_restRefs_of _ (by decide) (by decide)

/-- So the region finds each argument as launched, -/
theorem entry_arg (c : Dev nD) (b : Ref sig .tc) (hb : b ∈ args) : entry m c b = m ((c : Thread nD τ).loc b) :=
  StableHlo.after_of_forall_not_mem (b := Proc.devRef .tc b) _ _ (by
    simp only [List.flatten_cons, List.flatten_nil, List.append_nil]
    exact pre_spares_args b hb)

/-- and each argument ends as launched, whatever the region's proof data are. -/
theorem exit_arg (dats : (p : Fin 1) → (c : Dev nD) → Dat τ (Elt F) Unit ℕ (UR sig nD τ) ℕ (cfgs p) c) (c : Dev nD)
    (b : Ref sig .tc) (hb : b ∈ args) :
    Pipeline.afterTail₀ cfgs dats 0 (entry0 m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact post_spares_args b hb),
    Pipeline.withArrays_of_ne _ c (entry0 m c) _ b (args_not_staged b hb)]
  exact entry_arg m c b hb

/-! ## The windows' blocks -/

/-- Window w's block at grid point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds its block at every point, whether fetched there or left from the point
    before (the block index has not moved then), for any proof data over the entry contents whose body leaves the
    inputs in place. One statement per input window. -/
theorem in0_of {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem in1_of {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem in2_of {c : Dev nD} (dat : Dat τ (Elt F) Unit ℕ (UR sig nD τ) ℕ cfg0 c) (hA : dat.A 2 = entry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem in3_of {c : Dev nD} (dat : Dat τ (Elt F) Unit ℕ (UR sig nD τ) ℕ cfg0 c) (hA : dat.A 3 = entry m c (Pipeline.arrRef spec0 3))
    (hafter : ∀ t, dat.after 3 t = blk m c 3 t) (t : Fin cfg0.N) (d) : dat.before 3 t d = blk m c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The frame claim's post from a frame run -/

/-- A run of the program to the frame post — every staged array at what the proof data compute, every other
    buffer as the lines after the region leave it — leaves the eight arguments as launched. -/
theorem args_kept_of_run (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry0 m) [hostOps1]))) :
    θ_run defs (onTc (τ := τ) (main (F := F))) ⟨m, fun _ => 0, ρ⟩ (fun r => ∀ c : Dev nD, ∀ b ∈ args,
      r.2.mem ((c.tc : Thread nD τ).loc b) = m ((c.tc : Thread nD τ).loc b)) :=
  (θ_run defs _ _).mono (fun _ h c b hb => ((h c).2 b (args_bypass b hb)).trans (exit_arg m dats c b hb)) h

/-! ## The body's reset branch -/

/-- The condition of the body's one branch, from the grid coordinates: hidden block 0. -/
abbrev isFirst (i : grid0.Coords) : Prop :=
  (Scalar.cmpi .ne (Scalar.extui (Scalar.cmpi .eq (BitVec.ofNat 32 (i 2).val) 0#32)) 0#32) = 1#1
/-- It holds exactly at the points divisible by 43. -/
theorem isFirst_iff : ∀ t : Fin cfg0.N, isFirst (grid0.coords t) ↔ t.val % 43 = 0 :=
  (by decide +kernel : ∀ t : Fin grid0.N, isFirst (grid0.coords t) ↔ t.val % 43 = 0)

/-- No window is idle at any point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-! ## The staging memrefs at a point -/

/-- One staging buffer of the output window, through which its contents are stated. -/
abbrev outView : View sig .tc .vmem S1x512x4096 .f32 := (Memref.whole cc0_stg4_0 : Memref sig .tc .vmem S1x512x4096 .f32).view
abbrev sm0 (t : Fin cfg0.N) : Memref sig .tc .vmem S1x512x4096 .bf16 := win0_0.stage (cfg0.slots t 0)
abbrev sw0 (t : Fin cfg0.N) : (sm0 t).IsWhole := hstage0_0 ((cfg0.slots t 0).cast nbuf0_0)
abbrev sm1 (t : Fin cfg0.N) : Memref sig .tc .vmem S1x4096x256 .bf16 := win0_1.stage (cfg0.slots t 1)
abbrev sw1 (t : Fin cfg0.N) : (sm1 t).IsWhole := hstage0_1 ((cfg0.slots t 1).cast nbuf0_1)
abbrev sm2 (t : Fin cfg0.N) : Memref sig .tc .vmem S1x4096x256 .bf16 := win0_2.stage (cfg0.slots t 2)
abbrev sw2 (t : Fin cfg0.N) : (sm2 t).IsWhole := hstage0_2 ((cfg0.slots t 2).cast nbuf0_2)
abbrev sm3 (t : Fin cfg0.N) : Memref sig .tc .vmem S1x256x4096 .bf16 := win0_3.stage (cfg0.slots t 3)
abbrev sw3 (t : Fin cfg0.N) : (sm3 t).IsWhole := hstage0_3 ((cfg0.slots t 3).cast nbuf0_3)
abbrev sm4 (t : Fin cfg0.N) : Memref sig .tc .vmem S1x512x4096 .f32 := win0_4.stage (cfg0.slots t 4)
abbrev sw4 (t : Fin cfg0.N) : (sm4 t).IsWhole := hstage0_4 ((cfg0.slots t 4).cast nbuf0_4)

end Cert.KernelIdeal.Fr

end
-- ==== Proof.KIRunReset.lean ====
/-
  The body at a point of hidden block 0, for any float instance: on whole staging buffers — the four inputs at their
  blocks x0 … x3, the output tile at anything — it runs to the end, leaves the inputs as they were, and leaves in the
  output tile what its two stores wrote, the zero tile first and then the zero tile read back plus this block's product.
  The list of stored pieces is found by running the body; what it amounts to as a value is read elsewhere.
-/
import proofs.«131776_j90975997264556_1_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stored pieces (last first) and the body's triple, at a point where the reset branch is taken. -/
noncomputable def runReset (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : isFirst i)
    (x0 : Vec F S1x512x4096 .bf16) (x1 x2 : Vec F S1x4096x256 .bf16) (x3 : Vec F S1x256x4096 .bf16) :
    { L : List (View.Piece (Elt F) S1x512x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L)) -∗ K ⟨⟩))
          ⊢ wp frame (wpE (defs₀ (F := F)) Variants.none c none) E (cc0__mlp_kernel i a0 h0 a1 h1 a2 h2 a3 h3 a4 h4) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h0.eq_unread hf0; obtain rfl := h1.eq_unread hf1; obtain rfl := h2.eq_unread hf2; obtain rfl := h3.eq_unread hf3
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

end Cert.KernelIdeal.Fr

end
-- ==== Proof.KIRunAcc.lean ====
/-
  The body at a point of a later hidden block, for any float instance: on whole staging buffers — the four inputs at
  their blocks x0 … x3, the output tile at the running total xo the point before left — it runs to the end, leaves the
  inputs as they were, and leaves in the output tile what its one store wrote: the running total plus this block's
  product. The stored piece is found by running the body.
-/
import proofs.«131776_j90975997264556_1_alg».proof.Proof.KIRunReset

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stored pieces and the body's triple, at a point where the reset branch is not taken. -/
noncomputable def runAcc (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : ¬isFirst i)
    (x0 : Vec F S1x512x4096 .bf16) (x1 x2 : Vec F S1x4096x256 .bf16) (x3 : Vec F S1x256x4096 .bf16) (xo : Vec F S1x512x4096 .f32) :
    { L : List (View.Piece (Elt F) S1x512x4096 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L)) -∗ K ⟨⟩))
          ⊢ wp frame (wpE (defs₀ (F := F)) Variants.none c none) E (cc0__mlp_kernel i a0 h0 a1 h1 a2 h2 a3 h3 a4 h4) K } := by
  refine ⟨?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h0.eq_unread hf0; obtain rfl := h1.eq_unread hf1; obtain rfl := h2.eq_unread hf2; obtain rfl := h3.eq_unread hf3
    obtain rfl := h4.eq_unread hf4
    sl_exec (disch := first | exact hc)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    iexists _; iexact H4

end Cert.KernelIdeal.Fr

end
-- ==== Proof.KIFrame.lean ====
/-
  The frame of the program, for any float instance: every weakly fair execution terminates without a fault and
  leaves the eight arguments as launched.

  The output tile after grid point n is defined by recursion on n: at a point of hidden block 0 it is what the
  reset case's stores leave (a function of the point's four input blocks only); at any other point it is what the
  accumulate case's store leaves over the tile of the point before — the tile stays in its staging buffer between
  them, because it is written back only after hidden block 42 and the next point then starts a new tile at hidden
  block 0. With this as the region's proof data the body's triple at each point is the matching case's run, and the
  library's launch of a region followed by host lines gives the run of the whole program.
-/
import proofs.«131776_j90975997264556_1_alg».proof.Proof.KIRunAcc

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output tile -/

/-- The reset case's two stores tile the output buffer. -/
theorem coverReset (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : isFirst i)
    (x0 : Vec F S1x512x4096 .bf16) (x1 x2 : Vec F S1x4096x256 .bf16) (x3 : Vec F S1x256x4096 .bf16) (y : S1x512x4096.Idx) :
    ∃ pc ∈ (runReset c i a0 h0 a1 h1 a2 h2 a3 h3 a4 h4 hc x0 x1 x2 x3).1, y ∈ pc.1.set :=
  View.cover_of_tiledL (runReset c i a0 h0 a1 h1 a2 h2 a3 h3 a4 h4 hc x0 x1 x2 x3).1 S1x512x4096.size (by sl_kernel_rfl) y

/-- What the reset case leaves: its pieces read back. -/
def tileReset (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : isFirst i)
    (x0 : Vec F S1x512x4096 .bf16) (x1 x2 : Vec F S1x4096x256 .bf16) (x3 : Vec F S1x256x4096 .bf16) : Vec F S1x512x4096 .f32 :=
  outView.read (Elt F) (outView.writes (Elt F) outView.junk (runReset c i a0 h0 a1 h1 a2 h2 a3 h3 a4 h4 hc x0 x1 x2 x3).1)

/-- The accumulate case's one store tiles the output buffer. -/
theorem coverAcc (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : ¬isFirst i)
    (x0 : Vec F S1x512x4096 .bf16) (x1 x2 : Vec F S1x4096x256 .bf16) (x3 : Vec F S1x256x4096 .bf16) (xo : Vec F S1x512x4096 .f32) (y : S1x512x4096.Idx) :
    ∃ pc ∈ (runAcc c i a0 h0 a1 h1 a2 h2 a3 h3 a4 h4 hc x0 x1 x2 x3 xo).1, y ∈ pc.1.set :=
  View.cover_of_tiledL (runAcc c i a0 h0 a1 h1 a2 h2 a3 h3 a4 h4 hc x0 x1 x2 x3 xo).1 S1x512x4096.size (by sl_kernel_rfl) y

/-- What the accumulate case leaves over the running total xo: its piece read back. -/
def tileAcc (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : ¬isFirst i)
    (x0 : Vec F S1x512x4096 .bf16) (x1 x2 : Vec F S1x4096x256 .bf16) (x3 : Vec F S1x256x4096 .bf16) (xo : Vec F S1x512x4096 .f32) : Vec F S1x512x4096 .f32 :=
  outView.read (Elt F) (outView.writes (Elt F) outView.junk (runAcc c i a0 h0 a1 h1 a2 h2 a3 h3 a4 h4 hc x0 x1 x2 x3 xo).1)

/-! ## The output tile after each point -/

/-- The output tile after the body at position n. -/
def tileAt (c : Dev nD) : (n : ℕ) → n < cfg0.N → Vec F S1x512x4096 .f32
  | 0, hn => tileReset c (grid0.coords ⟨0, hn⟩) (sm0 ⟨0, hn⟩) (sw0 ⟨0, hn⟩) (sm1 ⟨0, hn⟩) (sw1 ⟨0, hn⟩) (sm2 ⟨0, hn⟩) (sw2 ⟨0, hn⟩) (sm3 ⟨0, hn⟩) (sw3 ⟨0, hn⟩) (sm4 ⟨0, hn⟩) (sw4 ⟨0, hn⟩) ((isFirst_iff ⟨0, hn⟩).mpr (Nat.zero_mod _)) (blk m c 0 ⟨0, hn⟩) (blk m c 1 ⟨0, hn⟩) (blk m c 2 ⟨0, hn⟩) (blk m c 3 ⟨0, hn⟩)
  | n + 1, hn =>
    if h : (n + 1) % 43 = 0 then
      tileReset c (grid0.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) ((isFirst_iff ⟨n + 1, hn⟩).mpr h) (blk m c 0 ⟨n + 1, hn⟩) (blk m c 1 ⟨n + 1, hn⟩) (blk m c 2 ⟨n + 1, hn⟩) (blk m c 3 ⟨n + 1, hn⟩)
    else
      tileAcc c (grid0.coords ⟨n + 1, hn⟩) (sm0 ⟨n + 1, hn⟩) (sw0 ⟨n + 1, hn⟩) (sm1 ⟨n + 1, hn⟩) (sw1 ⟨n + 1, hn⟩) (sm2 ⟨n + 1, hn⟩) (sw2 ⟨n + 1, hn⟩) (sm3 ⟨n + 1, hn⟩) (sw3 ⟨n + 1, hn⟩) (sm4 ⟨n + 1, hn⟩) (sw4 ⟨n + 1, hn⟩) (fun hh => h ((isFirst_iff ⟨n + 1, hn⟩).mp hh)) (blk m c 0 ⟨n + 1, hn⟩) (blk m c 1 ⟨n + 1, hn⟩) (blk m c 2 ⟨n + 1, hn⟩) (blk m c 3 ⟨n + 1, hn⟩) (tileAt c n (Nat.lt_of_succ_lt hn))

theorem tileAt_reset (c : Dev nD) (t : Fin cfg0.N) (h : t.val % 43 = 0) :
    tileAt m c t.val t.isLt = tileReset c (grid0.coords t) (sm0 t) (sw0 t) (sm1 t) (sw1 t) (sm2 t) (sw2 t) (sm3 t) (sw3 t) (sm4 t) (sw4 t) ((isFirst_iff t).mpr h) (blk m c 0 t) (blk m c 1 t) (blk m c 2 t) (blk m c 3 t) := by
  obtain ⟨n, hn⟩ := t
  cases n with
  | zero => exact rfl
  | succ n => exact (dif_pos h).trans rfl

theorem tileAt_acc (c : Dev nD) (t : Fin cfg0.N) (h : ¬t.val % 43 = 0) :
    tileAt m c t.val t.isLt = tileAcc c (grid0.coords t) (sm0 t) (sw0 t) (sm1 t) (sw1 t) (sm2 t) (sw2 t) (sm3 t) (sw3 t) (sm4 t) (sw4 t) (fun hh => h ((isFirst_iff t).mp hh)) (blk m c 0 t) (blk m c 1 t) (blk m c 2 t) (blk m c 3 t)
      (tileAt m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (dif_neg h).trans rfl

/-! ## The region's proof data -/

/-- On device c: the arrays as the region finds them; after the body at point t each input buffer at its block and
    the output buffer at the tile of that point; the invariant the scoped rest and the random-number register; nothing
    owed; full shares. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => tileAt m c t.val t.isLt
  Φ _ := Pipeline.ΦA spec0 c
  q _ := fullShare
  owed _ := 0

theorem A_eq (c : Dev nD) (w : Fin cfg0.W) : (dats m 0 c).A w = entry m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = tileAt m c t.val t.isLt := by dsimp only [dats]

theorem before0 (c : Dev nD) (t : Fin cfg0.N) (d) : (dats m 0 c).before 0 t d = blk m c 0 t :=
  in0_of m (dats m 0 c) (A_eq m c 0) (after0 m c) t d
theorem before1 (c : Dev nD) (t : Fin cfg0.N) (d) : (dats m 0 c).before 1 t d = blk m c 1 t :=
  in1_of m (dats m 0 c) (A_eq m c 1) (after1 m c) t d
theorem before2 (c : Dev nD) (t : Fin cfg0.N) (d) : (dats m 0 c).before 2 t d = blk m c 2 t :=
  in2_of m (dats m 0 c) (A_eq m c 2) (after2 m c) t d
theorem before3 (c : Dev nD) (t : Fin cfg0.N) (d) : (dats m 0 c).before 3 t d = blk m c 3 t :=
  in3_of m (dats m 0 c) (A_eq m c 3) (after3 m c) t d

/-- At a point of a later hidden block the output buffer holds the tile of the point before: the point is not the
    first, and the buffer was not written back in between (that happens only after hidden block 42, and the point
    after such a one is at hidden block 0). -/
theorem before4_acc (c : Dev nD) (t : Fin cfg0.N) (h : ¬t.val % 43 = 0) (d) :
    (dats m 0 c).before 4 t d = tileAt m c (t.val - 1) (Nat.lt_of_le_of_lt (Nat.sub_le _ _) t.isLt) := by
  have hN : t.val < 344 := lt_of_lt_of_eq t.isLt (show cfg0.N = 344 from N_0)
  rw [Dat.before_out_kept _ 4 rfl t (by omega) (Bool.eq_false_iff.mpr fun hh => by have := (flush0_4 _).mp hh; dsimp only at this; omega)
    (fun _ => rfl) (fun _ _ => rfl)]
  dsimp only [dats]

/-! ## The body at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t))

set_option maxHeartbeats 1600000 in
/-- The body at any point: the input buffers hold their blocks; the point's hidden block says which case it is in,
    and in the accumulate case the output buffer holds the tile of the point before; so that case's run applies,
    and the tile it leaves is the stores' pieces read back, since they cover the buffer. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  by_cases h : t.val % 43 = 0
  · rw [tileAt_reset m c t h]
    unfold tileReset
    iintro ⟨HΦ, Ho, ⟨%d0, H0⟩, ⟨%d1, H1⟩, ⟨%d2, H2⟩, ⟨%d3, H3⟩, ⟨%d4, H4⟩⟩
    iapply ((runReset c (grid0.coords t) _ _ _ _ _ _ _ _ _ _ ((isFirst_iff t).mpr h) (blk m c 0 t) (blk m c 1 t) (blk m c 2 t) (blk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset c _ _ _ _ _ _ _ _ _ _ _ _ _ _ _ _)
  · rw [tileAt_acc m c t h]
    simp only [before4_acc m c t h]
    unfold tileAcc
    iintro ⟨HΦ, Ho, ⟨%d0, H0⟩, ⟨%d1, H1⟩, ⟨%d2, H2⟩, ⟨%d3, H3⟩, ⟨%d4, H4⟩⟩
    iapply ((runAcc c (grid0.coords t) _ _ _ _ _ _ _ _ _ _ (fun hh => h ((isFirst_iff t).mp hh)) (blk m c 0 t) (blk m c 1 t) (blk m c 2 t) (blk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverAcc c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of the program terminates, and every final state
    has each staged array at what the proof data compute and every other buffer as the lines after the region
    leave it. -/
theorem run_main : θ_run defs (onTc (τ := τ) (main (F := F))) (s₀ m ρ)
    (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := post_sub) (hfresh := post_alloc) (hkeep := post_keeps)
    (hmain := main_split m Variants.none) (hA := A_eq m) (hΦ := fun _ _ => rfl)

/-- The frame: the program runs to the end and its eight arguments end as launched. -/
theorem frame : θ_run defs (onTc (τ := τ) (main (F := F))) ⟨m, fun _ => 0, ρ⟩ (fun r => ∀ c : Dev nD, ∀ b ∈ args,
      r.2.mem ((c.tc : Thread nD τ).loc b) = m ((c.tc : Thread nD τ).loc b)) :=
  args_kept_of_run m ρ (dats m) (run_main m ρ)

end Cert.KernelIdeal.Fr

end
-- ==== Proof.KITile.lean ====
/-
  The output tile of each case as a value, for any float instance.

  In the accumulate case the body's one store covers the whole tile, and its value is the body's arithmetic applied
  to the four input blocks and to the running total it loaded. In the reset case the first store writes the zero
  tile, the load that follows reads that zero tile back, and the second store covers the tile again: the tile is the
  body's arithmetic applied to the four input blocks and to the zero tile.
-/
import proofs.«131776_j90975997264556_1_alg».proof.Proof.KIFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem origin3 : (![0, 0, 0] : Fin 3 → Nat) = fun _ => 0 := funext fun a => by fin_cases a <;> rfl

/-- The accumulate case leaves the body's arithmetic of the input blocks and the running total. -/
theorem tileAcc_eq (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : ¬isFirst i)
    (x0 : Vec F S1x512x4096 .bf16) (x1 x2 : Vec F S1x4096x256 .bf16) (x3 : Vec F S1x256x4096 .bf16) (xo : Vec F S1x512x4096 .f32) :
    tileAcc c i a0 h0 a1 h1 a2 h2 a3 h3 a4 h4 hc x0 x1 x2 x3 xo = k0_pay2 x0 x1 x2 x3 xo := by
  unfold tileAcc
  rw [View.read_writes_eq_canon _ _ _ (coverAcc c i a0 h0 a1 h1 a2 h2 a3 h3 a4 h4 hc x0 x1 x2 x3 xo)]
  unfold runAcc
  dsimp only
  sl_unfold_words
  rw [View.canon_unit_zero origin3]
  simp only [View.readAt_eq_ld, h0.read_unread, h1.read_unread, h2.read_unread, h3.read_unread, h4.read_unread,
    View.ld_unit_zero (S := S1x512x4096) origin3, View.ld_unit_zero (S := S1x4096x256) origin3,
    View.ld_unit_zero (S := S1x256x4096) origin3]

/-- The reset case leaves the body's arithmetic of the input blocks and the zero tile. -/
theorem tileReset_eq (c : Dev nD) (i : grid0.Coords) (a0 : Memref sig .tc .vmem S1x512x4096 .bf16) (h0 : a0.IsWhole) (a1 : Memref sig .tc .vmem S1x4096x256 .bf16) (h1 : a1.IsWhole) (a2 : Memref sig .tc .vmem S1x4096x256 .bf16) (h2 : a2.IsWhole) (a3 : Memref sig .tc .vmem S1x256x4096 .bf16) (h3 : a3.IsWhole) (a4 : Memref sig .tc .vmem S1x512x4096 .f32) (h4 : a4.IsWhole) (hc : isFirst i)
    (x0 : Vec F S1x512x4096 .bf16) (x1 x2 : Vec F S1x4096x256 .bf16) (x3 : Vec F S1x256x4096 .bf16) :
    tileReset c i a0 h0 a1 h1 a2 h2 a3 h3 a4 h4 hc x0 x1 x2 x3 = k0_pay2 x0 x1 x2 x3 (k0_pay1 (F := F)) := by
  unfold tileReset
  rw [View.read_writes_eq_canon _ _ _ (coverReset c i a0 h0 a1 h1 a2 h2 a3 h3 a4 h4 hc x0 x1 x2 x3)]
  unfold runReset
  dsimp only
  sl_unfold_words
  rw [View.canon_cons_unit_zero (S := S1x512x4096) origin3, View.readCov_unit_zero (S := S1x512x4096) _ origin3]
  simp only [View.readAt_eq_ld, h0.read_unread, h1.read_unread, h2.read_unread, h3.read_unread,
    View.ld_unit_zero (S := S1x512x4096) origin3, View.ld_unit_zero (S := S1x4096x256) origin3,
    View.ld_unit_zero (S := S1x256x4096) origin3, View.readCov_unit_zero (S := S1x512x4096) _ origin3]

end Cert.KernelIdeal.Fr

end
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.Spec.lean ====
/-
  The mathematics both programs compute, over the extended reals.

  A token row x (D numbers) goes through a gated two-layer perceptron: hidden unit k has pre-activations
  a_k = Σ_j x_j · g(j,k) and b_k = Σ_j x_j · u(j,k), and value (a_k · σ(a_k)) · b_k with σ the logistic function;
  output column q is Σ_k hidden_k · d(k,q). The 4096 rows fall in four quarters of 1024; even quarters use one
  weight triple, odd quarters the other.

  Two facts about this function are proved here because the tiled program needs them: the sum over the K hidden
  units can be taken block by block (K = nb · b), and a total that starts from zero and adds one block per step
  is that sum. Both use only that addition on the extended reals is associative and commutative, so no
  finiteness of the inputs is needed.
-/
import Idealize.ShloMosaic.PureOps.Ideal
import Idealize.ShloMosaic.Lib.ValueIdx
import proofs.«131776_j90975997264556_1_alg».proof.Proof.LibBlockSum

noncomputable section

namespace Cert.Spec

open Idealize.ShloMosaic Idealize.ShloMosaic.ValueIdx

variable {D K N : ℕ}

/-- Hidden unit k on the row xr: (a · σ(a)) · b with a = Σ_j xr j · g j k and b = Σ_j xr j · u j k. -/
def hid (xr : Fin D → EReal) (g u : Fin D → Fin K → EReal) (k : Fin K) : EReal :=
  ((∑ j : Fin D, xr j * g j k) * Ideal.logistic (∑ j : Fin D, xr j * g j k)) * (∑ j : Fin D, xr j * u j k)

/-- Output column q of the perceptron on the row xr: Σ_k hid k · d k q. -/
def mlp (xr : Fin D → EReal) (g u : Fin D → Fin K → EReal) (d : Fin K → Fin N → EReal) (q : Fin N) : EReal :=
  ∑ k : Fin K, hid xr g u k * d k q

/-- Hidden index kk of block f, when the K hidden units are cut into nb blocks of b. -/
def blockIx (nb b : ℕ) (h : K = nb * b) (f : Fin nb) (kk : Fin b) : Fin K :=
  ⟨f.val * b + kk.val, by
    subst h
    calc f.val * b + kk.val < f.val * b + b := Nat.add_lt_add_left kk.isLt _
      _ = (f.val + 1) * b := (Nat.succ_mul _ _).symm
      _ ≤ nb * b := Nat.mul_le_mul_right _ f.isLt⟩

/-- Block f's share of output column q: the perceptron restricted to the hidden units of block f. -/
def mlpBlock (nb b : ℕ) (h : K = nb * b) (xr : Fin D → EReal) (g u : Fin D → Fin K → EReal)
    (d : Fin K → Fin N → EReal) (q : Fin N) (f : Fin nb) : EReal :=
  mlp xr (fun j kk => g j (blockIx nb b h f kk)) (fun j kk => u j (blockIx nb b h f kk))
    (fun kk q' => d (blockIx nb b h f kk) q') q

/-- The sum over all hidden units is the sum over the blocks of each block's share. -/
theorem mlp_eq_sum_blocks (nb b : ℕ) (h : K = nb * b) (xr : Fin D → EReal) (g u : Fin D → Fin K → EReal)
    (d : Fin K → Fin N → EReal) (q : Fin N) :
    mlp xr g u d q = ∑ f : Fin nb, mlpBlock nb b h xr g u d q f := by
  unfold mlp
  rw [Cert.BlockSum.sum_blocks nb b h]
  rfl

/-- A total that is 0 plus block 0's share after the first step, and gains block (n+1)'s share at step n+1, is
    after the last step the whole sum. -/
theorem total_eq_mlp (nb b : ℕ) (h : K = (nb + 1) * b) (xr : Fin D → EReal) (g u : Fin D → Fin K → EReal)
    (d : Fin K → Fin N → EReal) (q : Fin N) (acc : ℕ → EReal) (P : ℕ → EReal)
    (hP : ∀ f : Fin (nb + 1), P f.val = mlpBlock (nb + 1) b h xr g u d q f)
    (h0 : acc 0 = 0 + P 0) (hs : ∀ n, acc (n + 1) = acc n + P (n + 1)) :
    acc nb = mlp xr g u d q := by
  rw [Cert.BlockSum.running_total_last nb P acc h0 hs, mlp_eq_sum_blocks (nb + 1) b h]
  exact Finset.sum_congr rfl fun f _ => hP f

/-! ## Rows and segments

The tiled program gathers the two even quarters of the rows into one 2048-row stack (side 0) and the two odd
quarters into another (side 1), and scatters the result back. -/

/-- Row r of side s of the stack is this row of the sequence: quarter 2·(r / 1024) + s, offset r % 1024. -/
def seqRow (s : Fin 2) (r : Fin 2048) : Fin 4096 :=
  ⟨2048 * (r.val / 1024) + 1024 * s.val + r.val % 1024, by have := r.isLt; have := s.isLt; omega⟩

/-- The side a sequence row belongs to: the parity of its quarter. -/
def sideOf (R : Fin 4096) : Fin 2 := ⟨R.val / 1024 % 2, Nat.mod_lt _ (by decide)⟩

/-- Its row within that side's stack: 1024 · (quarter / 2) + offset. -/
def stackRow (R : Fin 4096) : Fin 2048 :=
  ⟨1024 * (R.val / 1024 / 2) + R.val % 1024, by have := R.isLt; omega⟩

theorem seqRow_stackRow (R : Fin 4096) : seqRow (sideOf R) (stackRow R) = R := by
  apply Fin.ext
  show 2048 * ((1024 * (R.val / 1024 / 2) + R.val % 1024) / 1024) + 1024 * (R.val / 1024 % 2)
      + (1024 * (R.val / 1024 / 2) + R.val % 1024) % 1024 = R.val
  have := R.isLt
  omega

/-- The whole function: row R, column q of the result is the perceptron on row R of x with the weights of
    R's side (side 0: vg, vu, vd; side 1: lg, lu, ld). -/
def out (x : Fin 4096 → Fin 4096 → EReal) (lg lu : Fin 4096 → Fin 11008 → EReal) (ld : Fin 11008 → Fin 4096 → EReal)
    (vg vu : Fin 4096 → Fin 11008 → EReal) (vd : Fin 11008 → Fin 4096 → EReal) (R q : Fin 4096) : EReal :=
  if R.val / 1024 % 2 = 0 then mlp (x R) vg vu vd q else mlp (x R) lg lu ld q

/-- The same on whole arrays of the programs' shapes. -/
def G (x : (⟨3, ![1, 4096, 4096]⟩ : Shape).Idx → EReal)
    (lg lu : (⟨2, ![4096, 11008]⟩ : Shape).Idx → EReal) (ld : (⟨2, ![11008, 4096]⟩ : Shape).Idx → EReal)
    (vg vu : (⟨2, ![4096, 11008]⟩ : Shape).Idx → EReal) (vd : (⟨2, ![11008, 4096]⟩ : Shape).Idx → EReal) :
    (⟨3, ![1, 4096, 4096]⟩ : Shape).Idx → EReal :=
  fun i => out (fun R j => x (ix3 0 R j)) (fun j k => lg (ix2 j k)) (fun j k => lu (ix2 j k)) (fun k q => ld (ix2 k q))
    (fun j k => vg (ix2 j k)) (fun j k => vu (ix2 j k)) (fun k q => vd (ix2 k q)) (i 1) (i 2)

theorem G_apply (x : (⟨3, ![1, 4096, 4096]⟩ : Shape).Idx → EReal)
    (lg lu : (⟨2, ![4096, 11008]⟩ : Shape).Idx → EReal) (ld : (⟨2, ![11008, 4096]⟩ : Shape).Idx → EReal)
    (vg vu : (⟨2, ![4096, 11008]⟩ : Shape).Idx → EReal) (vd : (⟨2, ![11008, 4096]⟩ : Shape).Idx → EReal)
    (a : Fin 1) (R q : Fin 4096) :
    G x lg lu ld vg vu vd (ix3 a R q)
      = out (fun R j => x (ix3 0 R j)) (fun j k => lg (ix2 j k)) (fun j k => lu (ix2 j k)) (fun k q => ld (ix2 k q))
          (fun j k => vg (ix2 j k)) (fun j k => vu (ix2 j k)) (fun k q => vd (ix2 k q)) R q := rfl

/-- The stacked form the tiled program computes between its gather and its scatter: side s, stack row r, column q
    is the perceptron on that stack row with side s's weights. -/
def stackOut (X : Fin 2 → Fin 2048 → Fin 4096 → EReal) (GW UW : Fin 2 → Fin 4096 → Fin 11008 → EReal)
    (DW : Fin 2 → Fin 11008 → Fin 4096 → EReal) (s : Fin 2) (r : Fin 2048) (q : Fin 4096) : EReal :=
  mlp (X s r) (GW s) (UW s) (DW s) q

end Cert.Spec

end
-- ==== Proof.LibMatmul2.lean ====
/-
  A rank-2 by rank-2 `tpu.matmul` into the zero accumulator, read at an index at the ideal values.

  For a dimension record that contracts the left operand's second axis against the right operand's first, with no batch
  axis, the product of an [M, K] and a [K, N] matrix read at (p, h) is the plain sum  Σₖ a (p, k) · b (k, h)  over the
  extended reals. The record's four coordinate facts (which operand coordinate is the output's row, the output's column,
  the contraction index) are hypotheses: each is decided on a literal record by whoever instantiates the lemma.
-/
import Idealize.ShloMosaic.PureOps.Ideal.Laws
import Idealize.ShloMosaic.Lib.ValueIdx

noncomputable section

namespace Cert.LibMatmul2

open Idealize.ShloMosaic Idealize.ShloMosaic.ValueIdx

/-- The matrix product into a zero accumulator at (p, h) is Σₖ a (p, k) · b (k, h). -/
theorem matmul_zero_apply {M K N : Nat} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (a : FVec Ideal ⟨2, ![M, K]⟩ φ₁) (b : FVec Ideal ⟨2, ![K, N]⟩ φ₂) (p : Fin M) (h : Fin N) :
    matmul D none a b (constant ⟨2, ![M, N]⟩ .f32 0x00000000#32) (ix2 p h) = ∑ k : Fin K, a (ix2 p k) * b (ix2 k h) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p h) ((contrEquiv1 D K hr hs).symm k) = ix2 p k := funext fun x => Fin.ext (by
    match x with
    | ⟨0, _⟩ => exact hl0 _ _
    | ⟨1, _⟩ => exact (hl1 _ _).trans hk)
  have er : D.rhsIdx (ix2 p h) ((contrEquiv1 D K hr hs).symm k) = ix2 k h := funext fun x => Fin.ext (by
    match x with
    | ⟨0, _⟩ => exact (hr0 _ _).trans hk
    | ⟨1, _⟩ => exact hr1 _ _)
  rw [el, er]

end Cert.LibMatmul2

end
-- ==== Proof.LibDotAxes.lean ====
/-
  The four coordinate facts of a rank-2 by rank-2 dimension record that contracts the left operand's columns with the
  right operand's rows and has no batch axis, from the record's six axis lists.

  For such a record the left operand is read at (output row, contraction index) and the right operand at
  (contraction index, output column); the contraction shape has one axis, of the shared extent. A literal record
  gives the six list equations by computation, and these lemmas turn them into the hypotheses a matrix product read
  at an index asks for.
-/
import Idealize.ShloMosaic.PureOps.Dims

namespace Cert.LibDotAxes

open Idealize.ShloMosaic

variable {M K N : Nat} (D : DotDims ⟨2, ![M, K]⟩ ⟨2, ![K, N]⟩ ⟨2, ![M, N]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) (h : 0 < D.contr.rank) : D.contr.size ⟨0, h⟩ = K := by
  have h0 : 0 < D.lhsContracting.length := by rw [hlc]; exact Nat.one_pos
  rw [D.size_contr 0 h0]
  have e : D.lhsContracting[0]'h0 = (1 : Fin 2) := by simp [hlc]
  rw [e]; rfl

private theorem val_congr {n : Nat} {sz : Fin n → Nat} (i : (a : Fin n) → Fin (sz a)) :
    ∀ (p q : Nat) (hp : p < n) (hq : q < n), p = q → (i ⟨p, hp⟩).val = (i ⟨q, hq⟩).val :=
  fun p q hp hq h => by subst h; rfl

/-- The left operand's row coordinate is the output's row. -/
theorem lhs_row (hlb : D.lhsBatch = []) (hln : D.lhsNonContracting = [0])
    (i : (⟨2, ![M, N]⟩ : Shape).Idx) (q : D.contr.Idx) : (D.lhsIdx i q 0).val = (i 0).val := by
  have h1 : (0 : Fin 2) ∉ D.lhsBatch := by rw [hlb]; exact List.not_mem_nil
  have h2 : (0 : Fin 2) ∈ D.lhsNonContracting := by rw [hln]; exact List.mem_singleton.mpr rfl
  unfold DotDims.lhsIdx
  rw [dif_neg h1, dif_pos h2]
  simp only [Fin.val_cast]
  exact val_congr i _ _ _ _ (by simp [hlb, hln])

/-- The left operand's column coordinate is the contraction index. -/
theorem lhs_col (hlc : D.lhsContracting = [1]) (i : (⟨2, ![M, N]⟩ : Shape).Idx) (q : D.contr.Idx)
    (h : 0 < D.contr.rank) : (D.lhsIdx i q 1).val = (q ⟨0, h⟩).val :=
  D.lhsIdx_val_of_single hlc i q

/-- The right operand's row coordinate is the contraction index. -/
theorem rhs_row (hrc : D.rhsContracting = [0]) (i : (⟨2, ![M, N]⟩ : Shape).Idx) (q : D.contr.Idx)
    (h : 0 < D.contr.rank) : (D.rhsIdx i q 0).val = (q ⟨0, h⟩).val :=
  D.rhsIdx_val_of_single hrc i q

/-- The right operand's column coordinate is the output's column. -/
theorem rhs_col (hlb : D.lhsBatch = []) (hln : D.lhsNonContracting = [0]) (hrb : D.rhsBatch = [])
    (hrn : D.rhsNonContracting = [1]) (i : (⟨2, ![M, N]⟩ : Shape).Idx) (q : D.contr.Idx) :
    (D.rhsIdx i q 1).val = (i 1).val := by
  have h1 : (1 : Fin 2) ∉ D.rhsBatch := by rw [hrb]; exact List.not_mem_nil
  have h2 : (1 : Fin 2) ∈ D.rhsNonContracting := by rw [hrn]; exact List.mem_singleton.mpr rfl
  unfold DotDims.rhsIdx
  rw [dif_neg h1, dif_pos h2]
  simp only [Fin.val_cast]
  exact val_congr i _ _ _ _ (by simp [hlb, hln, hrn])

end Cert.LibDotAxes
-- ==== Proof.KIPayload.lean ====
/-
  What the kernel body's two stores write, read at an index over the extended reals.

  The first store writes the zero word everywhere. The second writes, at (0, p, q), the block's running total at
  (0, p, q) plus one block's share of the gated perceptron on row p: with the token row x = v0 (0, p, ·), the gate and up
  weights g = v2 (0, ·, ·), u = v4 (0, ·, ·) and the down weights d = v12 (0, ·, ·), hidden unit k is
  (a_k · σ(a_k)) · b_k with a_k = Σ_j x_j · g(j, k), b_k = Σ_j x_j · u(j, k), and the share is Σ_k hidden_k · d(k, q).

  Each [1, a, b] ↔ [a, b] cast keeps the row-major position, so it only drops or adds the leading coordinate 0; each
  matrix product into the zero accumulator is the plain sum over the contracted axis; the narrowing to bf16 is the
  identity on extended reals; the products, the sum and the logistic function are read element by element.
-/
import proofs.«131776_j90975997264556_1_alg».proof.Proof.Gen.KernelIdeal.Skeleton
import proofs.«131776_j90975997264556_1_alg».proof.Proof.Spec
import proofs.«131776_j90975997264556_1_alg».proof.Proof.LibMatmul2
import proofs.«131776_j90975997264556_1_alg».proof.Proof.LibDotAxes
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The first store: zero everywhere -/

/-- The broadcast zero word, given a leading unit axis, reads 0 at every index. -/
theorem pay1_apply (i : S1x512x4096.Idx) : k0_pay1 (F := Ideal) i = 0 := by
  obtain ⟨a, p, q, rfl⟩ : ∃ (a : Fin 1) (p : Fin 512) (q : Fin 4096), i = ix3 a p q := ⟨i 0, i 1, i 2, eq_ix3 i⟩
  unfold k0_pay1
  refine (shapeCast_ab_1ab_apply _ _ a p q).trans ?_
  exact Ideal.ofBits_zero_f32

/-! ## The two matrix products, with their operands' leading unit axes dropped -/

/-- A [512, 4096] by [4096, 256] product into zero at (p, k) is Σ_j x (p, j) · w (j, k). -/
theorem up_apply (x : FVec Ideal S512x4096 .bf16) (w : FVec Ideal S4096x256 .bf16) (p : Fin 512) (k : Fin 256) :
    matmul dot_S512x4096_S4096x256_S512x256_1_0_0_1_n_n none x w (constant (F := Ideal) S512x256 .f32 0x00000000#32) (ix2 p k)
      = ∑ j : Fin 4096, x (ix2 p j) * w (ix2 j k) :=
  Cert.LibMatmul2.matmul_zero_apply dot_S512x4096_S4096x256_S512x256_1_0_0_1_n_n
    (Cert.LibDotAxes.contr_rank _ rfl) (Cert.LibDotAxes.contr_size _ rfl _)
    (Cert.LibDotAxes.lhs_row _ rfl rfl) (fun i q => Cert.LibDotAxes.lhs_col _ rfl i q _)
    (fun i q => Cert.LibDotAxes.rhs_row _ rfl i q _) (Cert.LibDotAxes.rhs_col _ rfl rfl rfl rfl) x w p k

/-- A [512, 256] by [256, 4096] product into zero at (p, q) is Σ_k h (p, k) · w (k, q). -/
theorem down_apply (h : FVec Ideal S512x256 .bf16) (w : FVec Ideal S256x4096 .bf16) (p : Fin 512) (q : Fin 4096) :
    matmul dot_S512x256_S256x4096_S512x4096_1_0_0_1_n_n none h w (constant (F := Ideal) S512x4096 .f32 0x00000000#32) (ix2 p q)
      = ∑ k : Fin 256, h (ix2 p k) * w (ix2 k q) :=
  Cert.LibMatmul2.matmul_zero_apply dot_S512x256_S256x4096_S512x4096_1_0_0_1_n_n
    (Cert.LibDotAxes.contr_rank _ rfl) (Cert.LibDotAxes.contr_size _ rfl _)
    (Cert.LibDotAxes.lhs_row _ rfl rfl) (fun i q => Cert.LibDotAxes.lhs_col _ rfl i q _)
    (fun i q => Cert.LibDotAxes.rhs_row _ rfl i q _) (Cert.LibDotAxes.rhs_col _ rfl rfl rfl rfl) h w p q

/-- The token block times a weight block, both given with a leading unit axis: at (p, k) it is
    Σ_j x (0, p, j) · w (0, j, k). -/
theorem up3_apply (x : FVec Ideal S1x512x4096 .bf16) (w : FVec Ideal S1x4096x256 .bf16) (p : Fin 512) (k : Fin 256) :
    matmul dot_S512x4096_S4096x256_S512x256_1_0_0_1_n_n none
        (shapeCast S512x4096 x shapeCasts_S1x512x4096_S512x4096) (shapeCast S4096x256 w shapeCasts_S1x4096x256_S4096x256)
        (constant (F := Ideal) S512x256 .f32 0x00000000#32) (ix2 p k)
      = ∑ j : Fin 4096, x (ix3 0 p j) * w (ix3 0 j k) := by
  refine (up_apply _ _ p k).trans ?_
  refine Finset.sum_congr rfl fun j _ => ?_
  exact congrArg₂ (· * ·) (shapeCast_1ab_ab_apply x _ p j) (shapeCast_1ab_ab_apply w _ j k)

/-- The hidden block times the down-weight block, the latter given with a leading unit axis: at (p, q) it is
    Σ_k h (p, k) · w (0, k, q). -/
theorem down3_apply (h : FVec Ideal S512x256 .bf16) (w : FVec Ideal S1x256x4096 .bf16) (p : Fin 512) (q : Fin 4096) :
    matmul dot_S512x256_S256x4096_S512x4096_1_0_0_1_n_n none h
        (shapeCast S256x4096 w shapeCasts_S1x256x4096_S256x4096)
        (constant (F := Ideal) S512x4096 .f32 0x00000000#32) (ix2 p q)
      = ∑ k : Fin 256, h (ix2 p k) * w (ix3 0 k q) := by
  refine (down_apply _ _ p q).trans ?_
  refine Finset.sum_congr rfl fun k _ => ?_
  exact congrArg (h (ix2 p k) * ·) (shapeCast_1ab_ab_apply w _ k q)

/-! ## The second store: the running total plus one block's share -/

/-- At (0, p, q) the second store writes the total read before it plus the perceptron's share on row p, column q. -/
theorem pay2_apply (v0 : Vec Ideal S1x512x4096 .bf16) (v2 v4 : Vec Ideal S1x4096x256 .bf16)
    (v12 : Vec Ideal S1x256x4096 .bf16) (v18 : Vec Ideal S1x512x4096 .f32) (a : Fin 1) (p : Fin 512) (q : Fin 4096) :
    k0_pay2 v0 v2 v4 v12 v18 (ix3 a p q)
      = v18 (ix3 a p q) + Cert.Spec.mlp (fun j => v0 (ix3 0 p j)) (fun j kk => v2 (ix3 0 j kk)) (fun j kk => v4 (ix3 0 j kk))
          (fun kk q' => v12 (ix3 0 kk q')) q := by
  obtain rfl : a = 0 := Subsingleton.elim _ _
  unfold k0_pay2
  -- the outer cast adds the unit axis; under it the sum of the total and the product is read at (p, q)
  refine (shapeCast_ab_1ab_apply _ _ 0 p q).trans ?_
  refine (addf_apply _ _ (ix2 p q)).trans ?_
  refine congrArg₂ (· + ·) (shapeCast_1ab_ab_apply v18 _ p q) ?_
  -- the down product is the sum over the hidden units
  refine (down3_apply _ v12 p q).trans ?_
  unfold Cert.Spec.mlp
  refine Finset.sum_congr rfl fun k _ => ?_
  refine congrArg (· * v12 (ix3 0 k q)) ?_
  -- hidden unit k: the narrowing is the identity, the products and the logistic function are read at (p, k),
  -- and the two pre-activations are the two up products
  unfold Cert.Spec.hid
  have ea := up3_apply v0 v2 p k
  have eb := up3_apply v0 v4 p k
  exact congrArg₂ (· * ·) (congrArg (fun t => t * Ideal.logistic t) ea) eb

end Cert.KernelIdeal.Pay

end
-- ==== Proof.KIBlocks.lean ====
/-
  Which entries of its array each window's block holds at a grid point, in closed form.

  The grid is 2 sides x 4 row tiles x 43 hidden blocks, 344 points in row-major order: point t has side t / 172, row
  tile t / 43 % 4 and hidden block t % 43. A block's element at coordinate y sits in its array at block index x block
  size + y on every axis. The token window's block index is (side, row tile, 0), the gate and up weights' (side, 0,
  hidden block), the down weights' (side, hidden block, 0), and the output's (side, row tile, 0). So the token block
  at t holds rows 512 (t / 43 % 4) + p of side t / 172, a gate or up block holds columns 256 (t % 43) + k, a down
  block holds rows 256 (t % 43) + k; the output's block is placed like the token block, and since it is written back
  at the points with hidden block 42, every (side, row) of the output array lies in the block of the write-back point
  43 (4 side + row / 512) + 42.
-/
import proofs.«131776_j90975997264556_1_alg».proof.Proof.KIBase
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Fr Idealize.ShloMosaic Idealize.ShloMosaic.TcCoe Idealize.SL.Sem Idealize.ShloMosaic.ValueIdx

/-- The grid has 344 points. -/
theorem pt_lt (t : Fin cfg0.N) : t.val < 344 := lt_of_lt_of_eq t.isLt N_0

/-- The side, stack row and hidden column a grid point's blocks start at. -/
def ptSide (t : Fin cfg0.N) : Fin 2 := ⟨t.val / 172, by have := pt_lt t; omega⟩
def ptRow (t : Fin cfg0.N) (p : Fin 512) : Fin 2048 := ⟨512 * (t.val / 43 % 4) + p.val, by have := p.isLt; omega⟩
def ptCol (t : Fin cfg0.N) (kk : Fin 256) : Fin 11008 := ⟨256 * (t.val % 43) + kk.val, by have := kk.isLt; omega⟩

/-! ## The block indices at a grid point -/

/-- The token window's block index at t is (side, row tile, 0). -/
theorem index_x : ∀ t : Fin cfg0.N, win0_0.index t (0 : Fin 3) = t.val / 172 ∧ win0_0.index t (1 : Fin 3) = t.val / 43 % 4
    ∧ win0_0.index t (2 : Fin 3) = 0 :=
  (by decide +kernel : ∀ t : Fin grid0.N, win0_0.index t (0 : Fin 3) = t.val / 172 ∧ win0_0.index t (1 : Fin 3) = t.val / 43 % 4
    ∧ win0_0.index t (2 : Fin 3) = 0)

/-- The gate weights' block index at t is (side, 0, hidden block). -/
theorem index_gw : ∀ t : Fin cfg0.N, win0_1.index t (0 : Fin 3) = t.val / 172 ∧ win0_1.index t (1 : Fin 3) = 0
    ∧ win0_1.index t (2 : Fin 3) = t.val % 43 :=
  (by decide +kernel : ∀ t : Fin grid0.N, win0_1.index t (0 : Fin 3) = t.val / 172 ∧ win0_1.index t (1 : Fin 3) = 0
    ∧ win0_1.index t (2 : Fin 3) = t.val % 43)

/-- The up weights' block index at t is (side, 0, hidden block). -/
theorem index_uw : ∀ t : Fin cfg0.N, win0_2.index t (0 : Fin 3) = t.val / 172 ∧ win0_2.index t (1 : Fin 3) = 0
    ∧ win0_2.index t (2 : Fin 3) = t.val % 43 :=
  (by decide +kernel : ∀ t : Fin grid0.N, win0_2.index t (0 : Fin 3) = t.val / 172 ∧ win0_2.index t (1 : Fin 3) = 0
    ∧ win0_2.index t (2 : Fin 3) = t.val % 43)

/-- The down weights' block index at t is (side, hidden block, 0). -/
theorem index_dw : ∀ t : Fin cfg0.N, win0_3.index t (0 : Fin 3) = t.val / 172 ∧ win0_3.index t (1 : Fin 3) = t.val % 43
    ∧ win0_3.index t (2 : Fin 3) = 0 :=
  (by decide +kernel : ∀ t : Fin grid0.N, win0_3.index t (0 : Fin 3) = t.val / 172 ∧ win0_3.index t (1 : Fin 3) = t.val % 43
    ∧ win0_3.index t (2 : Fin 3) = 0)

/-- The output's block index at t is (side, row tile, 0). -/
theorem index_o : ∀ t : Fin cfg0.N, win0_4.index t (0 : Fin 3) = t.val / 172 ∧ win0_4.index t (1 : Fin 3) = t.val / 43 % 4
    ∧ win0_4.index t (2 : Fin 3) = 0 :=
  (by decide +kernel : ∀ t : Fin grid0.N, win0_4.index t (0 : Fin 3) = t.val / 172 ∧ win0_4.index t (1 : Fin 3) = t.val / 43 % 4
    ∧ win0_4.index t (2 : Fin 3) = 0)

/-! ## The input blocks, read at an index -/

variable (m : (ℓ : Loc nD τ sig) → Buf (Elt Ideal) ℓ) (c : Dev nD)

/-- Row p, column j of the token block at t is row 512 (t / 43 % 4) + p, column j of side t / 172 of the token stack. -/
theorem blk_x (t : Fin cfg0.N) (p : Fin 512) (j : Fin 4096) :
    (blk m c 0 t : S1x512x4096.Idx → EReal) (ix3 0 p j) = (entry m c main_v10 : S2x2048x4096.Idx → EReal) (ix3 (ptSide t) (ptRow t p) j) := by
  obtain ⟨e0, e1, e2⟩ := index_x t
  unfold blk
  rw [View.read_apply]
  show entry m c main_v10 _ = entry m c main_v10 _
  congr 1
  funext a
  apply Fin.ext
  match a with
  | ⟨0, _⟩ => show win0_0.index t 0 * 1 + 1 * 0 = t.val / 172; rw [e0]; omega
  | ⟨1, _⟩ => show win0_0.index t 1 * 512 + 1 * p.val = 512 * (t.val / 43 % 4) + p.val; rw [e1]; omega
  | ⟨2, _⟩ => show win0_0.index t 2 * 4096 + 1 * j.val = j.val; rw [e2]; omega

/-- Row j, column k of the gate block at t is row j, column 256 (t % 43) + k of side t / 172 of the gate stack. -/
theorem blk_gw (t : Fin cfg0.N) (j : Fin 4096) (kk : Fin 256) :
    (blk m c 1 t : S1x4096x256.Idx → EReal) (ix3 0 j kk) = (entry m c main_v14 : S2x4096x11008.Idx → EReal) (ix3 (ptSide t) j (ptCol t kk)) := by
  obtain ⟨e0, e1, e2⟩ := index_gw t
  unfold blk
  rw [View.read_apply]
  show entry m c main_v14 _ = entry m c main_v14 _
  congr 1
  funext a
  apply Fin.ext
  match a with
  | ⟨0, _⟩ => show win0_1.index t 0 * 1 + 1 * 0 = t.val / 172; rw [e0]; omega
  | ⟨1, _⟩ => show win0_1.index t 1 * 4096 + 1 * j.val = j.val; rw [e1]; omega
  | ⟨2, _⟩ => show win0_1.index t 2 * 256 + 1 * kk.val = 256 * (t.val % 43) + kk.val; rw [e2]; omega

/-- Row j, column k of the up block at t is row j, column 256 (t % 43) + k of side t / 172 of the up stack. -/
theorem blk_uw (t : Fin cfg0.N) (j : Fin 4096) (kk : Fin 256) :
    (blk m c 2 t : S1x4096x256.Idx → EReal) (ix3 0 j kk) = (entry m c main_v18 : S2x4096x11008.Idx → EReal) (ix3 (ptSide t) j (ptCol t kk)) := by
  obtain ⟨e0, e1, e2⟩ := index_uw t
  unfold blk
  rw [View.read_apply]
  show entry m c main_v18 _ = entry m c main_v18 _
  congr 1
  funext a
  apply Fin.ext
  match a with
  | ⟨0, _⟩ => show win0_2.index t 0 * 1 + 1 * 0 = t.val / 172; rw [e0]; omega
  | ⟨1, _⟩ => show win0_2.index t 1 * 4096 + 1 * j.val = j.val; rw [e1]; omega
  | ⟨2, _⟩ => show win0_2.index t 2 * 256 + 1 * kk.val = 256 * (t.val % 43) + kk.val; rw [e2]; omega

/-- Row k, column q of the down block at t is row 256 (t % 43) + k, column q of side t / 172 of the down stack. -/
theorem blk_dw (t : Fin cfg0.N) (kk : Fin 256) (q : Fin 4096) :
    (blk m c 3 t : S1x256x4096.Idx → EReal) (ix3 0 kk q) = (entry m c main_v22 : S2x11008x4096.Idx → EReal) (ix3 (ptSide t) (ptCol t kk) q) := by
  obtain ⟨e0, e1, e2⟩ := index_dw t
  unfold blk
  rw [View.read_apply]
  show entry m c main_v22 _ = entry m c main_v22 _
  congr 1
  funext a
  apply Fin.ext
  match a with
  | ⟨0, _⟩ => show win0_3.index t 0 * 1 + 1 * 0 = t.val / 172; rw [e0]; omega
  | ⟨1, _⟩ => show win0_3.index t 1 * 256 + 1 * kk.val = 256 * (t.val % 43) + kk.val; rw [e1]; omega
  | ⟨2, _⟩ => show win0_3.index t 2 * 4096 + 1 * q.val = q.val; rw [e2]; omega

/-! ## The output window -/

/-- Any [2,2048,4096] array read through the output window's block at point t: row p, column q of the block is row
    512 (t / 43 % 4) + p, column q of side t / 172. -/
theorem out_blk_read (O : S2x2048x4096.Idx → EReal) (t : Fin cfg0.N) (p : Fin 512) (q : Fin 4096) :
    (((cfg0.win 4).blk t).view.read (Elt Ideal) O : S1x512x4096.Idx → EReal) (ix3 0 p q) = O (ix3 (ptSide t) (ptRow t p) q) := by
  obtain ⟨e0, e1, e2⟩ := index_o t
  rw [View.read_apply]
  show O _ = O _
  congr 1
  funext a
  apply Fin.ext
  match a with
  | ⟨0, _⟩ => show win0_4.index t 0 * 1 + 1 * 0 = t.val / 172; rw [e0]; omega
  | ⟨1, _⟩ => show win0_4.index t 1 * 512 + 1 * p.val = 512 * (t.val / 43 % 4) + p.val; rw [e1]; omega
  | ⟨2, _⟩ => show win0_4.index t 2 * 4096 + 1 * q.val = q.val; rw [e2]; omega

/-- Every index of the output array lies in the block of a write-back point: (s, r, q) in that of the point
    43 (4 s + r / 512) + 42, whose side is s, whose row tile is r / 512 and whose hidden block is 42. -/
theorem out_cover (i : S2x2048x4096.Idx) : ∃ t : Fin cfg0.N, (cfg0.win 4).flush t = true ∧ i ∈ ((cfg0.win 4).blk t).view.set := by
  have h0 : (i 0).val < 2 := (i 0).isLt
  have h1 : (i 1).val < 2048 := (i 1).isLt
  have h2 : (i 2).val < 4096 := (i 2).isLt
  obtain ⟨t, ht⟩ : ∃ t : Fin cfg0.N, t.val = 43 * (4 * (i 0).val + (i 1).val / 512) + 42 :=
    ⟨⟨43 * (4 * (i 0).val + (i 1).val / 512) + 42, by rw [show cfg0.N = 344 from N_0]; omega⟩, rfl⟩
  obtain ⟨e0, e1, e2⟩ := index_o t
  refine ⟨t, (flush0_4 t).mpr (by omega), ?_⟩
  show i ∈ ((View.whole main_v23).slice (win0_4.rect t)).set
  rw [View.set_slice_whole, Rect.mem_set_unit]
  intro a
  match a with
  | ⟨0, _⟩ => show win0_4.index t 0 * 1 ≤ (i 0).val ∧ (i 0).val < win0_4.index t 0 * 1 + 1; rw [e0]; omega
  | ⟨1, _⟩ => show win0_4.index t 1 * 512 ≤ (i 1).val ∧ (i 1).val < win0_4.index t 1 * 512 + 512; rw [e1]; omega
  | ⟨2, _⟩ => show win0_4.index t 2 * 4096 ≤ (i 2).val ∧ (i 2).val < win0_4.index t 2 * 4096 + 4096; rw [e2]; omega

end Cert.KernelIdeal.Blocks

end
-- ==== Proof.KIHostPre.lean ====
/-
  The four arrays the tiled region reads, as the operations before it build them from the arguments, read at an
  index over the extended reals.

  The sequence x (one batch of 4096 rows by 4096 columns) loses its unit axis; its rows fall in four quarters of
  1024. The even quarters (rows 0 … 1023 and 2048 … 3071) are gathered into one 2048-row block, the odd quarters
  (rows 1024 … 2047 and 3072 … 4095) into another; each block gets a unit axis and the two are stacked, so that
  side s, stack row r holds the sequence's row 2048 · (r / 1024) + 1024 · s + r % 1024. Each of the three pairs
  of weight matrices is stacked the same way: side 0 holds the first matrix of the pair, side 1 the second. The
  final narrowing of each stack is the identity on the extended reals.

  Every step is a layout operation, so each array at an index is ONE argument at ONE index; the lemmas below name
  that index operation by operation, and the row arithmetic is linear.
-/
import proofs.«131776_j90975997264556_1_alg».proof.Proof.Gen.KernelIdeal.Launch
import proofs.«131776_j90975997264556_1_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostPre

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-! ## Layout operations of the host prefix, read at an index -/

section Layout
variable {α : Type}

/-- A matrix broadcast to a new leading unit axis reads, at (u, i, j), the matrix at (i, j). -/
theorem bcast_ab_1ab_apply {a b : ℕ} (x : (⟨2, ![a, b]⟩ : Shape).Idx → α)
    (h : (⟨2, ![a, b]⟩ : Shape).BroadcastsInDim ⟨3, ![1, a, b]⟩ (![1, 2] : Fin 2 → Fin 3))
    (u : Fin 1) (i : Fin a) (j : Fin b) :
    broadcastInDim ⟨3, ![1, a, b]⟩ (![1, 2] : Fin 2 → Fin 3) h x (ix3 u i j) = x (ix2 i j) :=
  broadcastInDim_apply _ h x _ _ (fun ax => by
    match ax with
    | ⟨0, _⟩ =>
      show i.val = if a = 1 then 0 else i.val
      have := i.isLt
      split <;> omega
    | ⟨1, _⟩ =>
      show j.val = if b = 1 then 0 else j.val
      have := j.isLt
      split <;> omega)

/-- Two unit slabs stacked along the leading axis: slab s is read at (0, i, j). -/
theorem concat3_unit_apply {a b : ℕ} (x₁ x₂ : (⟨3, ![1, a, b]⟩ : Shape).Idx → α)
    (h : Shape.Concatenates [(⟨3, ![1, a, b]⟩ : Shape), ⟨3, ![1, a, b]⟩] ⟨3, ![2, a, b]⟩ 0)
    (s : Fin 2) (i : Fin a) (j : Fin b) :
    concatenate ⟨3, ![2, a, b]⟩ 0 [⟨⟨3, ![1, a, b]⟩, x₁⟩, ⟨⟨3, ![1, a, b]⟩, x₂⟩] h (ix3 s i j)
      = if s.val = 0 then x₁ (ix3 0 i j) else x₂ (ix3 0 i j) := by
  split
  next hs =>
    exact concatenate_pair_apply_left 0 x₁ x₂ h (ix3 s i j) rfl (ix3 0 i j) (fun d => by
      match d with
      | ⟨0, _⟩ => show (0 : ℕ) = s.val; omega
      | ⟨1, _⟩ => rfl
      | ⟨2, _⟩ => rfl)
  next hs =>
    exact concatenate_pair_apply_right 0 x₁ x₂ h (ix3 s i j) rfl rfl (ix3 0 i j) (fun d hd => by
      match d with
      | ⟨0, _⟩ => exact absurd rfl hd
      | ⟨1, _⟩ => rfl
      | ⟨2, _⟩ => rfl) (by show 0 + 1 = s.val; have := s.isLt; omega)

/-- Two row blocks stacked: a row above the first block's height is read in the first block. -/
theorem concat2_rows_left {n₁ n₂ n b : ℕ} (x₁ : (⟨2, ![n₁, b]⟩ : Shape).Idx → α) (x₂ : (⟨2, ![n₂, b]⟩ : Shape).Idx → α)
    (h : Shape.Concatenates [(⟨2, ![n₁, b]⟩ : Shape), ⟨2, ![n₂, b]⟩] ⟨2, ![n, b]⟩ 0)
    (r : Fin n) (j : Fin b) (p : Fin n₁) (hp : p.val = r.val) :
    concatenate ⟨2, ![n, b]⟩ 0 [⟨⟨2, ![n₁, b]⟩, x₁⟩, ⟨⟨2, ![n₂, b]⟩, x₂⟩] h (ix2 r j) = x₁ (ix2 p j) :=
  concatenate_pair_apply_left 0 x₁ x₂ h (ix2 r j) rfl (ix2 p j) (fun d => by
    match d with
    | ⟨0, _⟩ => exact hp
    | ⟨1, _⟩ => rfl)

/-- A row at or below the first block's height is read in the second block, that height less. -/
theorem concat2_rows_right {n₁ n₂ n b : ℕ} (x₁ : (⟨2, ![n₁, b]⟩ : Shape).Idx → α) (x₂ : (⟨2, ![n₂, b]⟩ : Shape).Idx → α)
    (h : Shape.Concatenates [(⟨2, ![n₁, b]⟩ : Shape), ⟨2, ![n₂, b]⟩] ⟨2, ![n, b]⟩ 0)
    (r : Fin n) (j : Fin b) (p : Fin n₂) (hp : p.val + n₁ = r.val) :
    concatenate ⟨2, ![n, b]⟩ 0 [⟨⟨2, ![n₁, b]⟩, x₁⟩, ⟨⟨2, ![n₂, b]⟩, x₂⟩] h (ix2 r j) = x₂ (ix2 p j) :=
  concatenate_pair_apply_right 0 x₁ x₂ h (ix2 r j) rfl rfl (ix2 p j) (fun d hd => by
    match d with
    | ⟨0, _⟩ => exact absurd rfl hd
    | ⟨1, _⟩ => rfl) hp

/-- Two quarters of a 4096-row matrix, starting at rows o₁ and o₂, gathered into 2048 rows: row r is the matrix's
    row o₁ + r in the first quarter and o₂ + (r - 1024) in the second. -/
theorem quarters_apply (Y : (⟨2, ![4096, 4096]⟩ : Shape).Idx → α) (o₁ o₂ : ℕ)
    (h₁ : (⟨2, ![4096, 4096]⟩ : Shape).Slices ![o₁, 0] ⟨2, ![1024, 4096]⟩)
    (h₂ : (⟨2, ![4096, 4096]⟩ : Shape).Slices ![o₂, 0] ⟨2, ![1024, 4096]⟩)
    (hcat : Shape.Concatenates [(⟨2, ![1024, 4096]⟩ : Shape), ⟨2, ![1024, 4096]⟩] ⟨2, ![2048, 4096]⟩ 0)
    (r : Fin 2048) (j : Fin 4096) (k : Fin 4096)
    (hk : k.val = if r.val < 1024 then o₁ + r.val else o₂ + (r.val - 1024)) :
    concatenate ⟨2, ![2048, 4096]⟩ 0
        [⟨⟨2, ![1024, 4096]⟩, extractStridedSlice ⟨2, ![1024, 4096]⟩ ![o₁, 0] Y h₁⟩,
         ⟨⟨2, ![1024, 4096]⟩, extractStridedSlice ⟨2, ![1024, 4096]⟩ ![o₂, 0] Y h₂⟩] hcat (ix2 r j)
      = Y (ix2 k j) := by
  by_cases hr : r.val < 1024
  · rw [if_pos hr] at hk
    exact (concat2_rows_left _ _ hcat r j ⟨r.val, hr⟩ rfl).trans (slice2_axis0_apply o₁ Y h₁ ⟨r.val, hr⟩ j k hk)
  · rw [if_neg hr] at hk
    have hlt : r.val - 1024 < 1024 := by have := r.isLt; omega
    exact (concat2_rows_right _ _ hcat r j ⟨r.val - 1024, hlt⟩ (by show r.val - 1024 + 1024 = r.val; omega)).trans
      (slice2_axis0_apply o₂ Y h₂ ⟨r.val - 1024, hlt⟩ j k hk)

end Layout

/-! ## The four arrays the kernel region reads -/

/-- The activations as the region finds them: the sequence's unit axis dropped, the two even quarters of its rows
    gathered into side 0 and the two odd quarters into side 1, each given a unit axis, the two stacked, and the
    result narrowed (the identity on the extended reals). Side s, stack row r, column j is the sequence's row
    2048 · (r / 1024) + 1024 · s + r % 1024 at column j. -/
theorem stackX_apply (X : (⟨3, ![1, 4096, 4096]⟩ : Shape).Idx → EReal)
    (hc : (⟨3, ![1, 4096, 4096]⟩ : Shape).ShapeCasts ⟨2, ![4096, 4096]⟩)
    (h0 : (⟨2, ![4096, 4096]⟩ : Shape).Slices ![0, 0] ⟨2, ![1024, 4096]⟩)
    (h2048 : (⟨2, ![4096, 4096]⟩ : Shape).Slices ![2048, 0] ⟨2, ![1024, 4096]⟩)
    (h1024 : (⟨2, ![4096, 4096]⟩ : Shape).Slices ![1024, 0] ⟨2, ![1024, 4096]⟩)
    (h3072 : (⟨2, ![4096, 4096]⟩ : Shape).Slices ![3072, 0] ⟨2, ![1024, 4096]⟩)
    (hcat : Shape.Concatenates [(⟨2, ![1024, 4096]⟩ : Shape), ⟨2, ![1024, 4096]⟩] ⟨2, ![2048, 4096]⟩ 0)
    (hb : (⟨2, ![2048, 4096]⟩ : Shape).BroadcastsInDim ⟨3, ![1, 2048, 4096]⟩ (![1, 2] : Fin 2 → Fin 3))
    (hcat3 : Shape.Concatenates [(⟨3, ![1, 2048, 4096]⟩ : Shape), ⟨3, ![1, 2048, 4096]⟩] ⟨3, ![2, 2048, 4096]⟩ 0)
    (hlt : FTy.bits .bf16 < FTy.bits .f32)
    (s : Fin 2) (r : Fin 2048) (j : Fin 4096) :
    (truncf (F := Ideal) .bf16
      (concatenate ⟨3, ![2, 2048, 4096]⟩ 0
        [⟨⟨3, ![1, 2048, 4096]⟩, broadcastInDim ⟨3, ![1, 2048, 4096]⟩ (![1, 2] : Fin 2 → Fin 3) hb
            (concatenate ⟨2, ![2048, 4096]⟩ 0
              [⟨⟨2, ![1024, 4096]⟩, extractStridedSlice ⟨2, ![1024, 4096]⟩ ![0, 0] (shapeCast ⟨2, ![4096, 4096]⟩ X hc) h0⟩,
               ⟨⟨2, ![1024, 4096]⟩, extractStridedSlice ⟨2, ![1024, 4096]⟩ ![2048, 0] (shapeCast ⟨2, ![4096, 4096]⟩ X hc) h2048⟩] hcat)⟩,
         ⟨⟨3, ![1, 2048, 4096]⟩, broadcastInDim ⟨3, ![1, 2048, 4096]⟩ (![1, 2] : Fin 2 → Fin 3) hb
            (concatenate ⟨2, ![2048, 4096]⟩ 0
              [⟨⟨2, ![1024, 4096]⟩, extractStridedSlice ⟨2, ![1024, 4096]⟩ ![1024, 0] (shapeCast ⟨2, ![4096, 4096]⟩ X hc) h1024⟩,
               ⟨⟨2, ![1024, 4096]⟩, extractStridedSlice ⟨2, ![1024, 4096]⟩ ![3072, 0] (shapeCast ⟨2, ![4096, 4096]⟩ X hc) h3072⟩] hcat)⟩]
        hcat3 : FVec Ideal ⟨3, ![2, 2048, 4096]⟩ .f32) hlt : FVec Ideal ⟨3, ![2, 2048, 4096]⟩ .bf16) (ix3 s r j)
      = X (ix3 0 (Cert.Spec.seqRow s r) j) := by
  have hr := r.isLt
  refine (truncf_apply _ hlt _).trans ?_
  refine (concat3_unit_apply _ _ hcat3 s r j).trans ?_
  split
  next hs =>
    refine (bcast_ab_1ab_apply _ hb 0 r j).trans ?_
    refine (quarters_apply _ 0 2048 h0 h2048 hcat r j (Cert.Spec.seqRow s r) ?_).trans
      (shapeCast_1ab_ab_apply X hc _ j)
    show 2048 * (r.val / 1024) + 1024 * s.val + r.val % 1024 = _
    split <;> omega
  next hs =>
    have hs1 : s.val = 1 := by have := s.isLt; omega
    refine (bcast_ab_1ab_apply _ hb 0 r j).trans ?_
    refine (quarters_apply _ 1024 3072 h1024 h3072 hcat r j (Cert.Spec.seqRow s r) ?_).trans
      (shapeCast_1ab_ab_apply X hc _ j)
    show 2048 * (r.val / 1024) + 1024 * s.val + r.val % 1024 = _
    split <;> omega

/-- A pair of weight matrices as the region finds them: each given a unit axis, the two stacked, and the result
    narrowed (the identity on the extended reals). Side s at (i, j) is matrix s at (i, j). -/
theorem stackW_apply {a b : ℕ} (W₀ W₁ : (⟨2, ![a, b]⟩ : Shape).Idx → EReal)
    (hb : (⟨2, ![a, b]⟩ : Shape).BroadcastsInDim ⟨3, ![1, a, b]⟩ (![1, 2] : Fin 2 → Fin 3))
    (hcat3 : Shape.Concatenates [(⟨3, ![1, a, b]⟩ : Shape), ⟨3, ![1, a, b]⟩] ⟨3, ![2, a, b]⟩ 0)
    (hlt : FTy.bits .bf16 < FTy.bits .f32)
    (s : Fin 2) (i : Fin a) (j : Fin b) :
    (truncf (F := Ideal) .bf16
      (concatenate ⟨3, ![2, a, b]⟩ 0
        [⟨⟨3, ![1, a, b]⟩, broadcastInDim ⟨3, ![1, a, b]⟩ (![1, 2] : Fin 2 → Fin 3) hb W₀⟩,
         ⟨⟨3, ![1, a, b]⟩, broadcastInDim ⟨3, ![1, a, b]⟩ (![1, 2] : Fin 2 → Fin 3) hb W₁⟩]
        hcat3 : FVec Ideal ⟨3, ![2, a, b]⟩ .f32) hlt : FVec Ideal ⟨3, ![2, a, b]⟩ .bf16) (ix3 s i j)
      = if s.val = 0 then W₀ (ix2 i j) else W₁ (ix2 i j) := by
  refine (truncf_apply _ hlt _).trans ?_
  refine (concat3_unit_apply _ _ hcat3 s i j).trans ?_
  split
  · exact bcast_ab_1ab_apply _ hb 0 i j
  · exact bcast_ab_1ab_apply _ hb 0 i j

/-- The activations: side s, stack row r, column j of the region's first array is the sequence at the row that
    stack row stands for. -/
theorem pre_x (s : Fin 2) (r : Fin 2048) (j : Fin 4096) :
    (StableHlo.after (hostOps0 (F := Ideal)) (fun b => m (c, b)) (Proc.devRef .tc main_v10) : S2x2048x4096.Idx → EReal) (ix3 s r j)
      = (m ((c.tc : Thread nD τ).loc main_arg0) : S1x4096x4096.Idx → EReal) (ix3 0 (Cert.Spec.seqRow s r) j) := by
  after_results
  exact stackX_apply (m (c, Proc.devRef .tc main_arg0)) _ _ _ _ _ _ _ _ _ s r j

/-- The gate weights: side 0 is the sixth argument, side 1 the third. -/
theorem pre_gw (s : Fin 2) (j : Fin 4096) (k : Fin 11008) :
    (StableHlo.after (hostOps0 (F := Ideal)) (fun b => m (c, b)) (Proc.devRef .tc main_v14) : S2x4096x11008.Idx → EReal) (ix3 s j k)
      = if s.val = 0 then (m ((c.tc : Thread nD τ).loc main_arg5) : S4096x11008.Idx → EReal) (ix2 j k)
        else (m ((c.tc : Thread nD τ).loc main_arg2) : S4096x11008.Idx → EReal) (ix2 j k) := by
  after_results
  exact stackW_apply (m (c, Proc.devRef .tc main_arg5)) (m (c, Proc.devRef .tc main_arg2)) _ _ _ s j k

/-- The up weights: side 0 is the seventh argument, side 1 the fourth. -/
theorem pre_uw (s : Fin 2) (j : Fin 4096) (k : Fin 11008) :
    (StableHlo.after (hostOps0 (F := Ideal)) (fun b => m (c, b)) (Proc.devRef .tc main_v18) : S2x4096x11008.Idx → EReal) (ix3 s j k)
      = if s.val = 0 then (m ((c.tc : Thread nD τ).loc main_arg6) : S4096x11008.Idx → EReal) (ix2 j k)
        else (m ((c.tc : Thread nD τ).loc main_arg3) : S4096x11008.Idx → EReal) (ix2 j k) := by
  after_results
  exact stackW_apply (m (c, Proc.devRef .tc main_arg6)) (m (c, Proc.devRef .tc main_arg3)) _ _ _ s j k

/-- The down weights: side 0 is the eighth argument, side 1 the fifth. -/
theorem pre_dw (s : Fin 2) (k : Fin 11008) (q : Fin 4096) :
    (StableHlo.after (hostOps0 (F := Ideal)) (fun b => m (c, b)) (Proc.devRef .tc main_v22) : S2x11008x4096.Idx → EReal) (ix3 s k q)
      = if s.val = 0 then (m ((c.tc : Thread nD τ).loc main_arg7) : S11008x4096.Idx → EReal) (ix2 k q)
        else (m ((c.tc : Thread nD τ).loc main_arg4) : S11008x4096.Idx → EReal) (ix2 k q) := by
  after_results
  exact stackW_apply (m (c, Proc.devRef .tc main_arg7)) (m (c, Proc.devRef .tc main_arg4)) _ _ _ s k q

end Cert.KernelIdeal.HostPre

end
-- ==== Proof.KIStack.lean ====
/-
  The stacked arrays the tiled region reads, by coordinates, and the stacked result in terms of the arguments, at the
  ideal instance.

  Row r of side s of the token stack is row 2048·(r / 1024) + 1024·s + r % 1024 of the sequence (the host lines before
  the region gather the even quarters into side 0 and the odd quarters into side 1; the change of float format is the
  identity on the extended reals); side 0 of each weight stack is the first weight triple, side 1 the second. So the
  stacked result at (side of R, stack row of R) is the perceptron on sequence row R with the weights of R's quarter's
  parity: the specified function at row R.
-/
import proofs.«131776_j90975997264556_1_alg».proof.Proof.KIBase
import proofs.«131776_j90975997264556_1_alg».proof.Proof.KIHostPre
import proofs.«131776_j90975997264556_1_alg».proof.Proof.Spec

set_option maxRecDepth 16384

noncomputable section

namespace Cert.KernelIdeal.Val

open Cert.KernelIdeal Cert.KernelIdeal.Gen Cert.KernelIdeal.Fr Cert.KernelIdeal.HostPre
open Idealize.ShloMosaic Idealize.ShloMosaic.TcCoe Idealize.SL.Sem Idealize.ShloMosaic.ValueIdx

variable (m : (ℓ : Loc nD τ sig) → Buf (Elt Ideal) ℓ) (c : Dev nD)

def X (s : Fin 2) (r : Fin 2048) (j : Fin 4096) : EReal := (entry m c main_v10 : S2x2048x4096.Idx → EReal) (ix3 s r j)
def GW (s : Fin 2) (j : Fin 4096) (k : Fin 11008) : EReal := (entry m c main_v14 : S2x4096x11008.Idx → EReal) (ix3 s j k)
def UW (s : Fin 2) (j : Fin 4096) (k : Fin 11008) : EReal := (entry m c main_v18 : S2x4096x11008.Idx → EReal) (ix3 s j k)
def DW (s : Fin 2) (k : Fin 11008) (q : Fin 4096) : EReal := (entry m c main_v22 : S2x11008x4096.Idx → EReal) (ix3 s k q)

/-- The stacked result the region computes, by coordinates. -/
def stack (s : Fin 2) (r : Fin 2048) (q : Fin 4096) : EReal :=
  Cert.Spec.stackOut (X m c) (GW m c) (UW m c) (DW m c) s r q

theorem X_eq (s : Fin 2) (r : Fin 2048) :
    X m c s r = fun j => (m ((c.tc : Thread nD τ).loc main_arg0) : S1x4096x4096.Idx → EReal) (ix3 0 (Cert.Spec.seqRow s r) j) :=
  funext fun j => pre_x m c s r j

theorem GW_eq (s : Fin 2) : GW m c s = fun j k =>
    if s.val = 0 then (m ((c.tc : Thread nD τ).loc main_arg5) : S4096x11008.Idx → EReal) (ix2 j k) else (m ((c.tc : Thread nD τ).loc main_arg2) : S4096x11008.Idx → EReal) (ix2 j k) :=
  funext fun j => funext fun k => pre_gw m c s j k

theorem UW_eq (s : Fin 2) : UW m c s = fun j k =>
    if s.val = 0 then (m ((c.tc : Thread nD τ).loc main_arg6) : S4096x11008.Idx → EReal) (ix2 j k) else (m ((c.tc : Thread nD τ).loc main_arg3) : S4096x11008.Idx → EReal) (ix2 j k) :=
  funext fun j => funext fun k => pre_uw m c s j k

theorem DW_eq (s : Fin 2) : DW m c s = fun k q =>
    if s.val = 0 then (m ((c.tc : Thread nD τ).loc main_arg7) : S11008x4096.Idx → EReal) (ix2 k q) else (m ((c.tc : Thread nD τ).loc main_arg4) : S11008x4096.Idx → EReal) (ix2 k q) :=
  funext fun k => funext fun q => pre_dw m c s k q

/-- The stacked result at the place sequence row R is gathered to is the specified function at row R. -/
theorem stack_eq_G (a : Fin 1) (R q : Fin 4096) :
    stack m c (Cert.Spec.sideOf R) (Cert.Spec.stackRow R) q
      = Cert.Spec.G (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 a R q) := by
  rw [Cert.Spec.G_apply]
  unfold stack Cert.Spec.stackOut Cert.Spec.out
  rw [X_eq, GW_eq, UW_eq, DW_eq, Cert.Spec.seqRow_stackRow]
  by_cases h : R.val / 1024 % 2 = 0
  · have hs : (Cert.Spec.sideOf R).val = 0 := h
    simp only [hs, if_true, h]
  · have hs : ¬(Cert.Spec.sideOf R).val = 0 := h
    simp only [hs, if_false, h]

end Cert.KernelIdeal.Val

end
-- ==== Proof.KISum.lean ====
/-
  The output tile after hidden block 42 is the whole perceptron, at the ideal instance.

  Fix one of the eight output tiles (side s = T / 4, row tile T % 4). Its 43 grid points are 43·T + n for
  n = 0 … 42. At n = 0 the body leaves 0 plus block 0's share; at every later n it adds block n's share to what the
  point before left. So after block n the tile holds the sum of the shares of blocks 0 … n, entry by entry, and after
  block 42 the sum over all 11008 hidden units: addition on the extended reals is associative and commutative, so the
  blocks' order and grouping do not matter and no finiteness is needed.
-/
import proofs.«131776_j90975997264556_1_alg».proof.Proof.KITile
import proofs.«131776_j90975997264556_1_alg».proof.Proof.KIPayload
import proofs.«131776_j90975997264556_1_alg».proof.Proof.KIBlocks
import proofs.«131776_j90975997264556_1_alg».proof.Proof.KIStack
import proofs.«131776_j90975997264556_1_alg».proof.Proof.Spec
import Mathlib.Algebra.BigOperators.Fin
import Mathlib.Algebra.BigOperators.Intervals

set_option maxRecDepth 16384

noncomputable section

namespace Cert.KernelIdeal.Val

open Cert.KernelIdeal Cert.KernelIdeal.Gen Cert.KernelIdeal.Fr Cert.KernelIdeal.Blocks Cert.KernelIdeal.Pay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

theorem hidden_blocks : (11008 : ℕ) = 43 * 256 := by norm_num

/-- Hidden block i's share of entry (r, q) of side s; zero past the last block. -/
def share (s : Fin 2) (r : Fin 2048) (q : Fin 4096) (i : ℕ) : EReal :=
  if h : i < 43 then Cert.Spec.mlpBlock 43 256 hidden_blocks (X m c s r) (GW m c s) (UW m c s) (DW m c s) q ⟨i, h⟩ else 0

/-- The hidden column a point's blocks start at is the block decomposition's. -/
theorem ptCol_eq (t : Fin cfg0.N) (kk : Fin 256) :
    ptCol t kk = Cert.Spec.blockIx 43 256 hidden_blocks ⟨t.val % 43, Nat.mod_lt _ (by decide)⟩ kk :=
  Fin.ext (by show 256 * (t.val % 43) + kk.val = t.val % 43 * 256 + kk.val; rw [Nat.mul_comm])

/-- What the body adds at point t, at row p and column q of the tile: the share of the point's hidden block. -/
theorem step_share (t : Fin cfg0.N) (p : Fin 512) (q : Fin 4096) :
    Cert.Spec.mlp (fun j => (blk m c 0 t : S1x512x4096.Idx → EReal) (ix3 0 p j))
        (fun j kk => (blk m c 1 t : S1x4096x256.Idx → EReal) (ix3 0 j kk))
        (fun j kk => (blk m c 2 t : S1x4096x256.Idx → EReal) (ix3 0 j kk))
        (fun kk q' => (blk m c 3 t : S1x256x4096.Idx → EReal) (ix3 0 kk q')) q
      = share m c (ptSide t) (ptRow t p) q (t.val % 43) := by
  unfold share
  rw [dif_pos (Nat.mod_lt _ (by decide))]
  unfold Cert.Spec.mlpBlock
  simp only [blk_x, blk_gw, blk_uw, blk_dw, ptCol_eq]
  rfl

/-! ## The tile, point by point -/

/-- At a point of hidden block 0 the tile holds 0 plus that block's share. -/
theorem tile_first (t : Fin cfg0.N) (h : t.val % 43 = 0) (a : Fin 1) (p : Fin 512) (q : Fin 4096) :
    (tileAt m c t.val t.isLt : S1x512x4096.Idx → EReal) (ix3 a p q) = 0 + share m c (ptSide t) (ptRow t p) q 0 := by
  rw [tileAt_reset m c t h, tileReset_eq, pay2_apply, pay1_apply, step_share, h]

/-- At a later point it holds what the point before left plus the point's share. -/
theorem tile_next (t : Fin cfg0.N) (h : ¬t.val % 43 = 0) (a : Fin 1) (p : Fin 512) (q : Fin 4096) :
    (tileAt m c t.val t.isLt : S1x512x4096.Idx → EReal) (ix3 a p q)
      = (tileAt m c (t.val - 1) (Nat.lt_of_le_of_lt (Nat.sub_le _ _) t.isLt) : S1x512x4096.Idx → EReal) (ix3 a p q)
        + share m c (ptSide t) (ptRow t p) q (t.val % 43) := by
  rw [tileAt_acc m c t h, tileAcc_eq, pay2_apply, step_share]

/-- The side and stack row of tile T. -/
def tileSide (T : ℕ) (hT : T < 8) : Fin 2 := ⟨T / 4, by omega⟩
def tileRow (T : ℕ) (hT : T < 8) (p : Fin 512) : Fin 2048 := ⟨512 * (T % 4) + p.val, by have := p.isLt; omega⟩

theorem ptSide_tile (T n : ℕ) (hT : T < 8) (hn : n < 43) (h : 43 * T + n < cfg0.N) :
    ptSide ⟨43 * T + n, h⟩ = tileSide T hT :=
  Fin.ext (by show (43 * T + n) / 172 = T / 4; omega)

theorem ptRow_tile (T n : ℕ) (hT : T < 8) (hn : n < 43) (h : 43 * T + n < cfg0.N) (p : Fin 512) :
    ptRow ⟨43 * T + n, h⟩ p = tileRow T hT p :=
  Fin.ext (by show 512 * ((43 * T + n) / 43 % 4) + p.val = 512 * (T % 4) + p.val; omega)

/-- After hidden block n of tile T the tile holds the sum of the shares of blocks 0 … n. -/
theorem tile_partial (T : ℕ) (hT : T < 8) (a : Fin 1) (p : Fin 512) (q : Fin 4096) :
    ∀ (n : ℕ) (hn : n < 43) (h : 43 * T + n < cfg0.N),
      (tileAt m c (43 * T + n) h : S1x512x4096.Idx → EReal) (ix3 a p q)
        = ∑ i ∈ Finset.range (n + 1), share m c (tileSide T hT) (tileRow T hT p) q i
  | 0, hn, h => by
    have e := tile_first m c ⟨43 * T + 0, h⟩ (by show (43 * T + 0) % 43 = 0; omega) a p q
    rw [ptSide_tile T 0 hT hn h, ptRow_tile T 0 hT hn h] at e
    rw [Finset.sum_range_one, ← zero_add (share m c (tileSide T hT) (tileRow T hT p) q 0)]
    exact e
  | n + 1, hn, h => by
    have hmod : (43 * T + (n + 1)) % 43 = n + 1 := by omega
    have e := tile_next m c ⟨43 * T + (n + 1), h⟩ (by show ¬(43 * T + (n + 1)) % 43 = 0; omega) a p q
    rw [ptSide_tile T (n + 1) hT hn h, ptRow_tile T (n + 1) hT hn h] at e
    rw [Finset.sum_range_succ, ← tile_partial T hT a p q n (by omega) (by omega)]
    refine e.trans ?_
    show _ + share m c (tileSide T hT) (tileRow T hT p) q ((43 * T + (n + 1)) % 43) = _
    rw [hmod]
    rfl

/-- The sum of all 43 shares is the whole perceptron. -/
theorem shares_total (s : Fin 2) (r : Fin 2048) (q : Fin 4096) :
    ∑ i ∈ Finset.range 43, share m c s r q i = stack m c s r q := by
  unfold stack Cert.Spec.stackOut
  rw [Cert.Spec.mlp_eq_sum_blocks 43 256 hidden_blocks, ← Fin.sum_univ_eq_sum_range (fun i => share m c s r q i) 43]
  refine Finset.sum_congr rfl fun f _ => ?_
  unfold share
  rw [dif_pos f.isLt]

/-- So at a write-back point (hidden block 42) the tile holds the stacked result's entries of that tile. -/
theorem tile_last (t : Fin cfg0.N) (h : t.val % 43 = 42) (a : Fin 1) (p : Fin 512) (q : Fin 4096) :
    (tileAt m c t.val t.isLt : S1x512x4096.Idx → EReal) (ix3 a p q) = stack m c (ptSide t) (ptRow t p) q := by
  have hN : t.val < 344 := lt_of_lt_of_eq t.isLt (show cfg0.N = 344 from N_0)
  have hT : t.val / 43 < 8 := by omega
  have ht : t.val = 43 * (t.val / 43) + 42 := by omega
  have hlt : 43 * (t.val / 43) + 42 < cfg0.N := ht ▸ t.isLt
  have e := tile_partial m c (t.val / 43) hT a p q 42 (by decide) hlt
  have et : t = ⟨43 * (t.val / 43) + 42, hlt⟩ := Fin.ext ht
  rw [shares_total] at e
  rw [et, ptSide_tile (t.val / 43) 42 hT (by decide) hlt, ptRow_tile (t.val / 43) 42 hT (by decide) hlt]
  exact e

end Cert.KernelIdeal.Val

end
-- ==== Proof.KIHostTail.lean ====
/-
  The ten host operations that follow the kernel region, read at an index.

  The region leaves a [2, 2048, 4096] array: side 0 holds the two even quarters of the 4096 sequence rows, one above
  the other, side 1 the two odd quarters. The host operations cut each side out, drop its unit axis, cut each side
  into its two halves of 1024 rows, lay the four halves end to end in the order
  (side 0, first half), (side 1, first half), (side 0, second half), (side 1, second half), and put a unit axis in
  front. So row R of the result, in quarter R / 1024 at offset R % 1024, is row 1024 · (R / 1024 / 2) + R % 1024
  of side (R / 1024) % 2.
-/
import proofs.«131776_j90975997264556_1_alg».proof.Proof.Gen.KernelIdeal.Launch
import proofs.«131776_j90975997264556_1_alg».proof.Proof.Spec
import Idealize.ShloMosaic.Lib.StableHlo.Run
import Idealize.ShloMosaic.Lib.Pipeline.Value
import Idealize.ShloMosaic.Lib.ValueLayout
import Idealize.ShloMosaic.Lib.ValueIdx

namespace Cert.KernelIdeal.HostTail

open Cert.KernelIdeal Cert.KernelIdeal.Gen Idealize.ShloMosaic Idealize.ShloMosaic.TcCoe Idealize.SL.Sem Idealize.ShloMosaic.ValueIdx

variable {α : Type}

/-! ## The result as one term of the region's output -/

/-- One of the four pieces: side s of the stack (a slice along axis 0, then the unit axis dropped), cut to the 1024
    rows from row o. -/
def piece (X : S2x2048x4096.Idx → α) (s o : Nat) (h1 : S2x2048x4096.Slices ![s, 0, 0] S1x2048x4096)
    (h3 : S2048x4096.Slices ![o, 0] S1024x4096) : S1024x4096.Idx → α :=
  extractStridedSlice S1024x4096 ![o, 0]
    (shapeCast S2048x4096 (extractStridedSlice S1x2048x4096 ![s, 0, 0] X h1) shapeCasts_S1x2048x4096_S2048x4096) h3

/-- The four pieces laid end to end along the rows, under a leading unit axis. -/
def tailTerm (X : S2x2048x4096.Idx → α) : S1x4096x4096.Idx → α :=
  broadcastInDim S1x4096x4096 ![1, 2] bcast_S4096x4096_S1x4096x4096_1_2
    (concatenate S4096x4096 0
      [⟨S1024x4096, piece X 0 0 slices_S2x2048x4096_S1x2048x4096_0_0_0 slices_S2048x4096_S1024x4096_0_0⟩,
       ⟨S1024x4096, piece X 1 0 slices_S2x2048x4096_S1x2048x4096_1_0_0 slices_S2048x4096_S1024x4096_0_0⟩,
       ⟨S1024x4096, piece X 0 1024 slices_S2x2048x4096_S1x2048x4096_0_0_0 slices_S2048x4096_S1024x4096_1024_0⟩,
       ⟨S1024x4096, piece X 1 1024 slices_S2x2048x4096_S1x2048x4096_1_0_0 slices_S2048x4096_S1024x4096_1024_0⟩]
      concatenates_S1024x4096_S1024x4096_S1024x4096_S1024x4096_S4096x4096_d0)

/-- The ten operations, run from any contents W, leave in the result buffer the term above of what W holds in the
    region's output buffer: each operation's result is read at its own buffer, every other buffer keeps what it held. -/
theorem after_eq_tailTerm (W : Valuation τ sig (Elt Ideal)) :
    StableHlo.after (hostOps1 (F := Ideal)) W (Proc.devRef .tc main_v33)
      = tailTerm (W (Proc.devRef .tc main_v23) : S2x2048x4096.Idx → EReal) := by
  unfold hostOps1
  simp only [StableHlo.after_cons, StableHlo.after_nil]
  rw [StableHlo.unary_result, StableHlo.nary4_result]
  repeat (first
    | rw [StableHlo.unary_result]
    | rw [StableHlo.reshape_result]
    | (rw [StableHlo.unary_result_ne]; rotate_left; decide)
    | (rw [StableHlo.reshape_result_ne]; rotate_left; decide))
  rfl

/-! ## Each layout operation read at an index -/

/-- The leading unit axis: entry (a, R, q) of the broadcast is entry (R, q) of the matrix. -/
theorem bcast_apply (Y : S4096x4096.Idx → α) (a : Fin 1) (R q : Fin 4096) :
    broadcastInDim S1x4096x4096 ![1, 2] bcast_S4096x4096_S1x4096x4096_1_2 Y (ix3 a R q) = Y (ix2 R q) :=
  broadcastInDim_apply _ _ Y _ (ix2 R q) fun ax => match ax with
    | ⟨0, _⟩ => rfl
    | ⟨1, _⟩ => rfl

/-- A piece at (r, q) is the stack at (s, o + r, q): the row cut shifts the row by o, dropping the unit axis keeps
    the row-major position, and the cut along axis 0 lands on side s. -/
theorem piece_apply (X : S2x2048x4096.Idx → α) (s o : Nat) (h1 : S2x2048x4096.Slices ![s, 0, 0] S1x2048x4096)
    (h3 : S2048x4096.Slices ![o, 0] S1024x4096) (r : Fin 1024) (q : Fin 4096) (sd : Fin 2) (ρ : Fin 2048)
    (hs : sd.val = s) (hρ : ρ.val = o + r.val) :
    piece X s o h1 h3 (ix2 r q) = X (ix3 sd ρ q) := by
  unfold piece
  refine (slice2_axis0_apply o _ h3 r q ρ hρ).trans ?_
  refine (shapeCast_1ab_ab_apply _ shapeCasts_S1x2048x4096_S2048x4096 ρ q).trans ?_
  exact extractStridedSlice_apply _ X h1 _ (ix3 sd ρ q) fun ax => match ax with
    | ⟨0, _⟩ => hs.trans (Nat.add_zero s).symm
    | ⟨1, _⟩ => (Nat.zero_add _).symm
    | ⟨2, _⟩ => (Nat.zero_add _).symm

/-- Four pieces of 1024 rows laid end to end: row R lies in piece k when 1024 · k + r = R with r below 1024, at the
    piece's row r. One statement per piece. -/
theorem concat4_apply (x0 x1 x2 x3 : S1024x4096.Idx → α) (R q : Fin 4096) (r : Fin 1024) (k : Fin 4)
    (hR : 1024 * k.val + r.val = R.val) :
    concatenate S4096x4096 0 [⟨S1024x4096, x0⟩, ⟨S1024x4096, x1⟩, ⟨S1024x4096, x2⟩, ⟨S1024x4096, x3⟩]
        concatenates_S1024x4096_S1024x4096_S1024x4096_S1024x4096_S4096x4096_d0 (ix2 R q)
      = (![x0, x1, x2, x3] k) (ix2 r q) := by
  have hi : ∀ b : Fin S1024x4096.rank, b.cast (rfl : S1024x4096.rank = S4096x4096.rank) ≠ (0 : Fin S4096x4096.rank) →
      ((ix2 r q : S1024x4096.Idx) b).val = ((ix2 R q : S4096x4096.Idx) (b.cast rfl)).val := fun b => match b with
    | ⟨0, _⟩ => fun hb => absurd rfl hb
    | ⟨1, _⟩ => fun _ => rfl
  match k, hR with
  | ⟨0, _⟩, hR =>
    exact concatenate_apply_piece 0 _ _ (ix2 R q) 0 (by show _ < 4; decide) S1024x4096 x0 rfl rfl 0 rfl (ix2 r q) hi
      (by show 0 + r.val = R.val; omega)
  | ⟨1, _⟩, hR =>
    exact concatenate_apply_piece 0 _ _ (ix2 R q) 1 (by show _ < 4; decide) S1024x4096 x1 rfl rfl 1024 rfl (ix2 r q) hi
      (by show 1024 + r.val = R.val; omega)
  | ⟨2, _⟩, hR =>
    exact concatenate_apply_piece 0 _ _ (ix2 R q) 2 (by show _ < 4; decide) S1024x4096 x2 rfl rfl 2048 rfl (ix2 r q) hi
      (by show 2048 + r.val = R.val; omega)
  | ⟨3, _⟩, hR =>
    exact concatenate_apply_piece 0 _ _ (ix2 R q) 3 (by show _ < 4; decide) S1024x4096 x3 rfl rfl 3072 rfl (ix2 r q) hi
      (by show 3072 + r.val = R.val; omega)

/-! ## The result at an index -/

/-- Entry (a, R, q) of the term is the stack at side (R / 1024) % 2, row 1024 · (R / 1024 / 2) + R % 1024, column q. -/
theorem tailTerm_apply (X : S2x2048x4096.Idx → α) (a : Fin 1) (R q : Fin 4096) :
    tailTerm X (ix3 a R q) = X (ix3 (Cert.Spec.sideOf R) (Cert.Spec.stackRow R) q) := by
  have hR := R.isLt
  have hr : R.val % 1024 < 1024 := Nat.mod_lt _ (by decide)
  have hk : R.val / 1024 < 4 := by omega
  unfold tailTerm
  rw [bcast_apply, concat4_apply _ _ _ _ R q ⟨R.val % 1024, hr⟩ ⟨R.val / 1024, hk⟩
    (by show 1024 * (R.val / 1024) + R.val % 1024 = R.val; omega)]
  have hside : (Cert.Spec.sideOf R).val = R.val / 1024 % 2 := rfl
  have hrow : (Cert.Spec.stackRow R).val = 1024 * (R.val / 1024 / 2) + R.val % 1024 := rfl
  have h4 : R.val / 1024 = 0 ∨ R.val / 1024 = 1 ∨ R.val / 1024 = 2 ∨ R.val / 1024 = 3 := by omega
  rcases h4 with h | h | h | h
  · rw [show (⟨R.val / 1024, hk⟩ : Fin 4) = 0 from Fin.ext h]
    exact piece_apply X 0 0 slices_S2x2048x4096_S1x2048x4096_0_0_0 slices_S2048x4096_S1024x4096_0_0 ⟨R.val % 1024, hr⟩ q _ _ (by rw [hside]; omega) (by rw [hrow]; show _ = 0 + R.val % 1024; omega)
  · rw [show (⟨R.val / 1024, hk⟩ : Fin 4) = 1 from Fin.ext h]
    exact piece_apply X 1 0 slices_S2x2048x4096_S1x2048x4096_1_0_0 slices_S2048x4096_S1024x4096_0_0 ⟨R.val % 1024, hr⟩ q _ _ (by rw [hside]; omega) (by rw [hrow]; show _ = 0 + R.val % 1024; omega)
  · rw [show (⟨R.val / 1024, hk⟩ : Fin 4) = 2 from Fin.ext h]
    exact piece_apply X 0 1024 slices_S2x2048x4096_S1x2048x4096_0_0_0 slices_S2048x4096_S1024x4096_1024_0 ⟨R.val % 1024, hr⟩ q _ _ (by rw [hside]; omega) (by rw [hrow]; show _ = 1024 + R.val % 1024; omega)
  · rw [show (⟨R.val / 1024, hk⟩ : Fin 4) = 3 from Fin.ext h]
    exact piece_apply X 1 1024 slices_S2x2048x4096_S1x2048x4096_1_0_0 slices_S2048x4096_S1024x4096_1024_0 ⟨R.val % 1024, hr⟩ q _ _ (by rw [hside]; omega) (by rw [hrow]; show _ = 1024 + R.val % 1024; omega)

/-- The program's result after the ten host operations, from any contents W, at (a, R, q): the region's output at
    side (R / 1024) % 2, row 1024 · (R / 1024 / 2) + R % 1024, column q. -/
theorem tail_out (W : Valuation τ sig (Elt Ideal)) (a : Fin 1) (R q : Fin 4096) :
    (StableHlo.after (hostOps1 (F := Ideal)) W (Proc.devRef .tc main_v33) : S1x4096x4096.Idx → EReal) (ix3 a R q)
      = (W (Proc.devRef .tc main_v23) : S2x2048x4096.Idx → EReal) (ix3 (Cert.Spec.sideOf R) (Cert.Spec.stackRow R) q) := by
  rw [after_eq_tailTerm W]
  exact tailTerm_apply _ a R q

end Cert.KernelIdeal.HostTail
-- ==== Proof.KIValue.lean ====
/-
  The tiled program's run with its result named, at the ideal instance.

  Every entry of the region's output array lies in the tile of exactly one write-back point, and that point writes the
  stacked result's entries of its tile; so after the run the output array is the stacked result. The ten host lines
  after the region scatter it back into sequence order: row R of the program's result is stack row (side of R, stack
  row of R), which is the specified function at row R. The arguments end as launched.
-/
import proofs.«131776_j90975997264556_1_alg».proof.Proof.KISum
import proofs.«131776_j90975997264556_1_alg».proof.Proof.KIHostTail
import Idealize.ShloMosaic.Lib.Pipeline.Value

set_option maxRecDepth 16384

noncomputable section

namespace Cert.KernelIdeal.Val

open Cert.KernelIdeal Cert.KernelIdeal.Gen Cert.KernelIdeal.Fr Cert.KernelIdeal.Blocks Cert.KernelIdeal.HostTail
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The stacked result as an array of the output's shape. -/
def stackArr : S2x2048x4096.Idx → EReal := fun i => stack m c (i 0) (i 1) (i 2)

/-- A write-back point writes the stacked result's entries of its tile. -/
theorem flushed_eq (t : Fin cfg0.N) (hf : (cfg0.win 4).flush t = true) :
    (dats m 0 c).flushed 4 t = ((cfg0.win 4).blk t).view.read (Elt Ideal) (stackArr m c) := by
  have h42 : t.val % 43 = 42 := (flush0_4 t).mp hf
  show (cfg0.win 4).cut (grid0.coords t) ((dats m 0 c).after 4 t) = _
  rw [after4]
  funext y
  obtain ⟨a, p, q, rfl⟩ : ∃ (a : Fin 1) (p : Fin 512) (q : Fin 4096), y = ix3 a p q := ⟨y 0, y 1, y 2, eq_ix3 y⟩
  obtain rfl : a = 0 := Subsingleton.elim _ _
  refine (tile_last m c t h42 0 p q).trans ?_
  exact (out_blk_read (stackArr m c) t p q).symm

/-- After the run the region's output array is the stacked result. -/
theorem out_final : (dats m 0 c).arrAt 4 cfg0.N = stackArr m c :=
  (dats m 0 c).arrAt_eq_of_cover 4 (stackArr m c) (flushed_eq m c) (fun i => out_cover i)

/-- The program's result after the host lines that follow the region is the specified function of the arguments. -/
theorem result_eq :
    (Pipeline.afterTail₀ cfgs (dats m) 0 (entry0 m) [hostOps1] c main_v33 : S1x4096x4096.Idx → EReal)
      = Cert.Spec.G (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨a, R, q, rfl⟩ : ∃ (a : Fin 1) (R : Fin 4096) (q : Fin 4096), i = ix3 a R q := ⟨i 0, i 1, i 2, eq_ix3 i⟩
  unfold Pipeline.afterTail₀
  simp only [List.flatten_cons, List.flatten_nil, List.append_nil]
  rw [tail_out, ← stack_eq_G m c a R q]
  have e : Pipeline.withArrays spec0 c (entry0 m c) (fun w => (dats m 0 c).arrAt w cfg0.N) (Proc.devRef .tc main_v23) = stackArr m c :=
    (Pipeline.withArrays_arr spec0 launch0.win.arr_inj c _ _ 4).trans (out_final m c)
  rw [e]
  rfl

/-- Every weakly fair execution of the program terminates with its result at the specified function of the arguments
    and the arguments as launched. -/
theorem run : θ_run defs (onTc (τ := τ) (main (F := Ideal))) ⟨m, fun _ => 0, ρ⟩ fun r => ∀ c : Dev nD,
      r.2.mem ((c.tc : Thread nD τ).loc main_v33) = Cert.Spec.G (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ ∀ b ∈ args, r.2.mem ((c.tc : Thread nD τ).loc b) = m ((c.tc : Thread nD τ).loc b) :=
  (θ_run defs _ _).mono (fun _ h c =>
      ⟨((h c).2 main_v33 (Pipeline.mem_restRefs_of main_v33 (by decide) (by decide))).trans (result_eq m c),
       fun b hb => ((h c).2 b (args_bypass b hb)).trans (exit_arg m (dats m) c b hb)⟩)
    (run_main m ρ)

end Cert.KernelIdeal.Val

end
-- ==== Proof.RefSpec.lean ====
/-
  The reference program's result is the specification.

  The reference cuts the 4096 rows of x into four quarters of 1024 (a slice each), sends each quarter through a gated
  two-layer perceptron, and lays the four results end to end along the row axis. Read at row R, column q, that
  concatenation is row R % 1024 of quarter R / 1024. Within a quarter every stage is read at an index: the two
  first-layer products are sums over the 4096 input features of the sliced row (row 1024·n + r of x) times a weight
  column; the activation is spelt a · (1 / (1 + exp (−a))) with the literal 0x3F800000, the number one, so it is
  a · σ(a) by the definition of the logistic function; the second-layer product is the sum over the 11008 hidden
  units. That is the perceptron of the specification on row 1024·n + r of x. Quarters 0 and 2 use the weight triple
  (arguments 5, 6, 7), quarters 1 and 3 the triple (arguments 2, 3, 4): the specification's choice by the parity of
  the quarter. No law of arithmetic is used beyond reading each operation at an index: the two sides are the same
  sums in the same order.
-/
import proofs.«131776_j90975997264556_1_alg».proof.Proof.Gen.ReferenceIdeal.Run
import proofs.«131776_j90975997264556_1_alg».proof.Proof.Gen.ReferenceIdeal.Read
import proofs.«131776_j90975997264556_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.ValueIdx

/-- The gated activation as the program spells it, a · (1 / (1 + exp (−a))) with both ones the literal
    0x3F800000, is a · σ(a): the literal is the number one, and σ is defined as 1 / (1 + exp (−·)). -/
theorem silu_spelt (a : EReal) :
    a * Ideal.div (Ideal.ofBits .f32 0x3F800000#32) (Ideal.ofBits .f32 0x3F800000#32 + Ideal.exp (-a))
      = a * Ideal.logistic a := by
  rw [Ideal.ofBits_one_f32]; rfl

/-- Four blocks of 1024 rows laid end to end along the row axis: row R of the whole is row R % 1024 of
    block R / 1024; the other two coordinates are unchanged. -/
theorem concat_row {α : Type} (y0 y1 y2 y3 : S1x1024x4096.Idx → α) (a : Fin 1) (R q : Fin 4096) :
    concatenate S1x4096x4096 1 [⟨S1x1024x4096, y0⟩, ⟨S1x1024x4096, y1⟩, ⟨S1x1024x4096, y2⟩, ⟨S1x1024x4096, y3⟩]
        concatenates_S1x1024x4096_S1x1024x4096_S1x1024x4096_S1x1024x4096_S1x4096x4096_d1 (ix3 a R q)
      = (![y0, y1, y2, y3] ⟨R.val / 1024, by omega⟩) (ix3 a ⟨R.val % 1024, by omega⟩ q) :=
  concatenate_ofFn_apply (t := S1x4096x4096) (s₁ := S1x1024x4096) 1 ![y0, y1, y2, y3] _ rfl 1024 rfl (ix3 a R q)
    ⟨R.val / 1024, by omega⟩ rfl (ix3 a ⟨R.val % 1024, by omega⟩ q) rfl
    (fun b hb => by match b with | ⟨0, _⟩ => rfl | ⟨1, _⟩ => exact absurd rfl hb | ⟨2, _⟩ => rfl)

/-! ## Quarter 0: rows 0 … 1023, weights (5, 6, 7) -/

/-- Hidden unit k of quarter 0 at row r: both first-layer sums read row r of x; the activation is a · σ(a). -/
theorem hid_quarter0 (x0 : (⟨S1x4096x4096, .f32⟩ : BufTy).Contents (Elt Ideal))
    (x5 x6 : (⟨S4096x11008, .f32⟩ : BufTy).Contents (Elt Ideal))
    (a : Fin 1) (r : Fin 1024) (k : Fin 11008) :
    val_main_v4 (F := Ideal) x0 x5 x6 (ix3 a r k)
      = Cert.Spec.hid (fun j => x0 (ix3 a ⟨r.val, by omega⟩ j)) (fun j k => x5 (ix2 j k)) (fun j k => x6 (ix2 j k)) k := by
  rw [val_main_v4_apply, val_main_v2_apply, val_main_call0_v5_apply, val_main_call0_v4_apply, val_main_call0_cst_0_apply,
    val_main_call0_v3_apply, val_main_call0_v2_apply, val_main_call0_cst_apply, val_main_call0_v1_apply, val_main_call0_v0_apply,
    val_main_v1_apply, val_main_v3_apply]
  have eg : ∀ j : Fin 4096, val_main_v0 (F := Ideal) x0 (lidx_main_v1 (ix3 a r k) j) = x0 (ix3 a ⟨r.val, by omega⟩ j) := fun j => by
    rw [val_main_v0_apply]
    exact congrArg x0 (funext fun d => Fin.ext (by match d with | ⟨0, _⟩ => rfl | ⟨1, _⟩ => rfl | ⟨2, _⟩ => rfl))
  have eu : ∀ j : Fin 4096, val_main_v0 (F := Ideal) x0 (lidx_main_v3 (ix3 a r k) j) = x0 (ix3 a ⟨r.val, by omega⟩ j) := fun j => by
    rw [val_main_v0_apply]
    exact congrArg x0 (funext fun d => Fin.ext (by match d with | ⟨0, _⟩ => rfl | ⟨1, _⟩ => rfl | ⟨2, _⟩ => rfl))
  have wg : ∀ j : Fin 4096, ridx_main_v1 (ix3 a r k) j = ix2 j k := fun j =>
    funext fun d => Fin.ext (by match d with | ⟨0, _⟩ => rfl | ⟨1, _⟩ => rfl)
  have wu : ∀ j : Fin 4096, ridx_main_v3 (ix3 a r k) j = ix2 j k := fun j =>
    funext fun d => Fin.ext (by match d with | ⟨0, _⟩ => rfl | ⟨1, _⟩ => rfl)
  simp only [eg, eu, wg, wu]
  exact congrArg (· * _) (silu_spelt _)

/-- Quarter 0 at row r, column q is the perceptron on row r of x with the weights (5, 6, 7). -/
theorem mlp_quarter0 (x0 : (⟨S1x4096x4096, .f32⟩ : BufTy).Contents (Elt Ideal))
    (x5 x6 : (⟨S4096x11008, .f32⟩ : BufTy).Contents (Elt Ideal)) (x7 : (⟨S11008x4096, .f32⟩ : BufTy).Contents (Elt Ideal))
    (a : Fin 1) (r : Fin 1024) (q : Fin 4096) :
    val_main_v5 (F := Ideal) x0 x5 x6 x7 (ix3 a r q)
      = Cert.Spec.mlp (fun j => x0 (ix3 a ⟨r.val, by omega⟩ j)) (fun j k => x5 (ix2 j k)) (fun j k => x6 (ix2 j k))
          (fun k q => x7 (ix2 k q)) q := by
  rw [val_main_v5_apply]
  unfold Cert.Spec.mlp
  refine Finset.sum_congr rfl fun k _ => ?_
  have el : lidx_main_v5 (ix3 a r q) k = ix3 a r k :=
    funext fun d => Fin.ext (by match d with | ⟨0, _⟩ => rfl | ⟨1, _⟩ => rfl | ⟨2, _⟩ => rfl)
  have er : ridx_main_v5 (ix3 a r q) k = ix2 k q :=
    funext fun d => Fin.ext (by match d with | ⟨0, _⟩ => rfl | ⟨1, _⟩ => rfl)
  rw [el, er, hid_quarter0]

/-! ## Quarter 1: rows 1024 … 2047, weights (2, 3, 4) -/

/-- Hidden unit k of quarter 1 at row r: both first-layer sums read row 1024 + r of x. -/
theorem hid_quarter1 (x0 : (⟨S1x4096x4096, .f32⟩ : BufTy).Contents (Elt Ideal))
    (x2 x3 : (⟨S4096x11008, .f32⟩ : BufTy).Contents (Elt Ideal))
    (a : Fin 1) (r : Fin 1024) (k : Fin 11008) :
    val_main_v10 (F := Ideal) x0 x2 x3 (ix3 a r k)
      = Cert.Spec.hid (fun j => x0 (ix3 a ⟨1024 + r.val, by omega⟩ j)) (fun j k => x2 (ix2 j k)) (fun j k => x3 (ix2 j k)) k := by
  rw [val_main_v10_apply, val_main_v8_apply, val_main_call1_v5_apply, val_main_call1_v4_apply, val_main_call1_cst_0_apply,
    val_main_call1_v3_apply, val_main_call1_v2_apply, val_main_call1_cst_apply, val_main_call1_v1_apply, val_main_call1_v0_apply,
    val_main_v7_apply, val_main_v9_apply]
  have eg : ∀ j : Fin 4096, val_main_v6 (F := Ideal) x0 (lidx_main_v7 (ix3 a r k) j) = x0 (ix3 a ⟨1024 + r.val, by omega⟩ j) := fun j => by
    rw [val_main_v6_apply]
    exact congrArg x0 (funext fun d => Fin.ext (by match d with | ⟨0, _⟩ => rfl | ⟨1, _⟩ => rfl | ⟨2, _⟩ => rfl))
  have eu : ∀ j : Fin 4096, val_main_v6 (F := Ideal) x0 (lidx_main_v9 (ix3 a r k) j) = x0 (ix3 a ⟨1024 + r.val, by omega⟩ j) := fun j => by
    rw [val_main_v6_apply]
    exact congrArg x0 (funext fun d => Fin.ext (by match d with | ⟨0, _⟩ => rfl | ⟨1, _⟩ => rfl | ⟨2, _⟩ => rfl))
  have wg : ∀ j : Fin 4096, ridx_main_v7 (ix3 a r k) j = ix2 j k := fun j =>
    funext fun d => Fin.ext (by match d with | ⟨0, _⟩ => rfl | ⟨1, _⟩ => rfl)
  have wu : ∀ j : Fin 4096, ridx_main_v9 (ix3 a r k) j = ix2 j k := fun j =>
    funext fun d => Fin.ext (by match d with | ⟨0, _⟩ => rfl | ⟨1, _⟩ => rfl)
  simp only [eg, eu, wg, wu]
  exact congrArg (· * _) (silu_spelt _)

/-- Quarter 1 at row r, column q is the perceptron on row 1024 + r of x with the weights (2, 3, 4). -/
theorem mlp_quarter1 (x0 : (⟨S1x4096x4096, .f32⟩ : BufTy).Contents (Elt Ideal))
    (x2 x3 : (⟨S4096x11008, .f32⟩ : BufTy).Contents (Elt Ideal)) (x4 : (⟨S11008x4096, .f32⟩ : BufTy).Contents (Elt Ideal))
    (a : Fin 1) (r : Fin 1024) (q : Fin 4096) :
    val_main_v11 (F := Ideal) x0 x2 x3 x4 (ix3 a r q)
      = Cert.Spec.mlp (fun j => x0 (ix3 a ⟨1024 + r.val, by omega⟩ j)) (fun j k => x2 (ix2 j k)) (fun j k => x3 (ix2 j k))
          (fun k q => x4 (ix2 k q)) q := by
  rw [val_main_v11_apply]
  unfold Cert.Spec.mlp
  refine Finset.sum_congr rfl fun k _ => ?_
  have el : lidx_main_v11 (ix3 a r q) k = ix3 a r k :=
    funext fun d => Fin.ext (by match d with | ⟨0, _⟩ => rfl | ⟨1, _⟩ => rfl | ⟨2, _⟩ => rfl)
  have er : ridx_main_v11 (ix3 a r q) k = ix2 k q :=
    funext fun d => Fin.ext (by match d with | ⟨0, _⟩ => rfl | ⟨1, _⟩ => rfl)
  rw [el, er, hid_quarter1]

/-! ## Quarter 2: rows 2048 … 3071, weights (5, 6, 7) -/

/-- Hidden unit k of quarter 2 at row r: both first-layer sums read row 2048 + r of x. -/
theorem hid_quarter2 (x0 : (⟨S1x4096x4096, .f32⟩ : BufTy).Contents (Elt Ideal))
    (x5 x6 : (⟨S4096x11008, .f32⟩ : BufTy).Contents (Elt Ideal))
    (a : Fin 1) (r : Fin 1024) (k : Fin 11008) :
    val_main_v16 (F := Ideal) x0 x5 x6 (ix3 a r k)
      = Cert.Spec.hid (fun j => x0 (ix3 a ⟨2048 + r.val, by omega⟩ j)) (fun j k => x5 (ix2 j k)) (fun j k => x6 (ix2 j k)) k := by
  rw [val_main_v16_apply, val_main_v14_apply, val_main_call2_v5_apply, val_main_call2_v4_apply, val_main_call2_cst_0_apply,
    val_main_call2_v3_apply, val_main_call2_v2_apply, val_main_call2_cst_apply, val_main_call2_v1_apply, val_main_call2_v0_apply,
    val_main_v13_apply, val_main_v15_apply]
  have eg : ∀ j : Fin 4096, val_main_v12 (F := Ideal) x0 (lidx_main_v13 (ix3 a r k) j) = x0 (ix3 a ⟨2048 + r.val, by omega⟩ j) := fun j => by
    rw [val_main_v12_apply]
    exact congrArg x0 (funext fun d => Fin.ext (by match d with | ⟨0, _⟩ => rfl | ⟨1, _⟩ => rfl | ⟨2, _⟩ => rfl))
  have eu : ∀ j : Fin 4096, val_main_v12 (F := Ideal) x0 (lidx_main_v15 (ix3 a r k) j) = x0 (ix3 a ⟨2048 + r.val, by omega⟩ j) := fun j => by
    rw [val_main_v12_apply]
    exact congrArg x0 (funext fun d => Fin.ext (by match d with | ⟨0, _⟩ => rfl | ⟨1, _⟩ => rfl | ⟨2, _⟩ => rfl))
  have wg : ∀ j : Fin 4096, ridx_main_v13 (ix3 a r k) j = ix2 j k := fun j =>
    funext fun d => Fin.ext (by match d with | ⟨0, _⟩ => rfl | ⟨1, _⟩ => rfl)
  have wu : ∀ j : Fin 4096, ridx_main_v15 (ix3 a r k) j = ix2 j k := fun j =>
    funext fun d => Fin.ext (by match d with | ⟨0, _⟩ => rfl | ⟨1, _⟩ => rfl)
  simp only [eg, eu, wg, wu]
  exact congrArg (· * _) (silu_spelt _)

/-- Quarter 2 at row r, column q is the perceptron on row 2048 + r of x with the weights (5, 6, 7). -/
theorem mlp_quarter2 (x0 : (⟨S1x4096x4096, .f32⟩ : BufTy).Contents (Elt Ideal))
    (x5 x6 : (⟨S4096x11008, .f32⟩ : BufTy).Contents (Elt Ideal)) (x7 : (⟨S11008x4096, .f32⟩ : BufTy).Contents (Elt Ideal))
    (a : Fin 1) (r : Fin 1024) (q : Fin 4096) :
    val_main_v17 (F := Ideal) x0 x5 x6 x7 (ix3 a r q)
      = Cert.Spec.mlp (fun j => x0 (ix3 a ⟨2048 + r.val, by omega⟩ j)) (fun j k => x5 (ix2 j k)) (fun j k => x6 (ix2 j k))
          (fun k q => x7 (ix2 k q)) q := by
  rw [val_main_v17_apply]
  unfold Cert.Spec.mlp
  refine Finset.sum_congr rfl fun k _ => ?_
  have el : lidx_main_v17 (ix3 a r q) k = ix3 a r k :=
    funext fun d => Fin.ext (by match d with | ⟨0, _⟩ => rfl | ⟨1, _⟩ => rfl | ⟨2, _⟩ => rfl)
  have er : ridx_main_v17 (ix3 a r q) k = ix2 k q :=
    funext fun d => Fin.ext (by match d with | ⟨0, _⟩ => rfl | ⟨1, _⟩ => rfl)
  rw [el, er, hid_quarter2]

/-! ## Quarter 3: rows 3072 … 4095, weights (2, 3, 4) -/

/-- Hidden unit k of quarter 3 at row r: both first-layer sums read row 3072 + r of x. -/
theorem hid_quarter3 (x0 : (⟨S1x4096x4096, .f32⟩ : BufTy).Contents (Elt Ideal))
    (x2 x3 : (⟨S4096x11008, .f32⟩ : BufTy).Contents (Elt Ideal))
    (a : Fin 1) (r : Fin 1024) (k : Fin 11008) :
    val_main_v22 (F := Ideal) x0 x2 x3 (ix3 a r k)
      = Cert.Spec.hid (fun j => x0 (ix3 a ⟨3072 + r.val, by omega⟩ j)) (fun j k => x2 (ix2 j k)) (fun j k => x3 (ix2 j k)) k := by
  rw [val_main_v22_apply, val_main_v20_apply, val_main_call3_v5_apply, val_main_call3_v4_apply, val_main_call3_cst_0_apply,
    val_main_call3_v3_apply, val_main_call3_v2_apply, val_main_call3_cst_apply, val_main_call3_v1_apply, val_main_call3_v0_apply,
    val_main_v19_apply, val_main_v21_apply]
  have eg : ∀ j : Fin 4096, val_main_v18 (F := Ideal) x0 (lidx_main_v19 (ix3 a r k) j) = x0 (ix3 a ⟨3072 + r.val, by omega⟩ j) := fun j => by
    rw [val_main_v18_apply]
    exact congrArg x0 (funext fun d => Fin.ext (by match d with | ⟨0, _⟩ => rfl | ⟨1, _⟩ => rfl | ⟨2, _⟩ => rfl))
  have eu : ∀ j : Fin 4096, val_main_v18 (F := Ideal) x0 (lidx_main_v21 (ix3 a r k) j) = x0 (ix3 a ⟨3072 + r.val, by omega⟩ j) := fun j => by
    rw [val_main_v18_apply]
    exact congrArg x0 (funext fun d => Fin.ext (by match d with | ⟨0, _⟩ => rfl | ⟨1, _⟩ => rfl | ⟨2, _⟩ => rfl))
  have wg : ∀ j : Fin 4096, ridx_main_v19 (ix3 a r k) j = ix2 j k := fun j =>
    funext fun d => Fin.ext (by match d with | ⟨0, _⟩ => rfl | ⟨1, _⟩ => rfl)
  have wu : ∀ j : Fin 4096, ridx_main_v21 (ix3 a r k) j = ix2 j k := fun j =>
    funext fun d => Fin.ext (by match d with | ⟨0, _⟩ => rfl | ⟨1, _⟩ => rfl)
  simp only [eg, eu, wg, wu]
  exact congrArg (· * _) (silu_spelt _)

/-- Quarter 3 at row r, column q is the perceptron on row 3072 + r of x with the weights (2, 3, 4). -/
theorem mlp_quarter3 (x0 : (⟨S1x4096x4096, .f32⟩ : BufTy).Contents (Elt Ideal))
    (x2 x3 : (⟨S4096x11008, .f32⟩ : BufTy).Contents (Elt Ideal)) (x4 : (⟨S11008x4096, .f32⟩ : BufTy).Contents (Elt Ideal))
    (a : Fin 1) (r : Fin 1024) (q : Fin 4096) :
    val_main_v23 (F := Ideal) x0 x2 x3 x4 (ix3 a r q)
      = Cert.Spec.mlp (fun j => x0 (ix3 a ⟨3072 + r.val, by omega⟩ j)) (fun j k => x2 (ix2 j k)) (fun j k => x3 (ix2 j k))
          (fun k q => x4 (ix2 k q)) q := by
  rw [val_main_v23_apply]
  unfold Cert.Spec.mlp
  refine Finset.sum_congr rfl fun k _ => ?_
  have el : lidx_main_v23 (ix3 a r q) k = ix3 a r k :=
    funext fun d => Fin.ext (by match d with | ⟨0, _⟩ => rfl | ⟨1, _⟩ => rfl | ⟨2, _⟩ => rfl)
  have er : ridx_main_v23 (ix3 a r q) k = ix2 k q :=
    funext fun d => Fin.ext (by match d with | ⟨0, _⟩ => rfl | ⟨1, _⟩ => rfl)
  rw [el, er, hid_quarter3]

/-! ## The whole result -/

/-- Row R, column q of the reference's result: the concatenation is read in quarter R / 1024 at row R % 1024, that
    quarter is the perceptron on row 1024 · (R / 1024) + R % 1024 = R of x, and its weight triple is the one the
    specification picks by the parity of R / 1024. -/
theorem ref_at (x0 : (⟨S1x4096x4096, .f32⟩ : BufTy).Contents (Elt Ideal))
    (x2 x3 : (⟨S4096x11008, .f32⟩ : BufTy).Contents (Elt Ideal)) (x4 : (⟨S11008x4096, .f32⟩ : BufTy).Contents (Elt Ideal))
    (x5 x6 : (⟨S4096x11008, .f32⟩ : BufTy).Contents (Elt Ideal)) (x7 : (⟨S11008x4096, .f32⟩ : BufTy).Contents (Elt Ideal))
    (R q : Fin 4096) :
    val_main_v24 (F := Ideal) x0 x2 x3 x4 x5 x6 x7 (ix3 0 R q)
      = Cert.Spec.out (fun R j => x0 (ix3 0 R j)) (fun j k => x2 (ix2 j k)) (fun j k => x3 (ix2 j k))
          (fun k q => x4 (ix2 k q)) (fun j k => x5 (ix2 j k)) (fun j k => x6 (ix2 j k)) (fun k q => x7 (ix2 k q)) R q := by
  unfold val_main_v24
  rw [concat_row]
  unfold Cert.Spec.out
  rcases (show R.val / 1024 = 0 ∨ R.val / 1024 = 1 ∨ R.val / 1024 = 2 ∨ R.val / 1024 = 3 by omega) with h | h | h | h
  · have hn : (⟨R.val / 1024, by omega⟩ : Fin 4) = 0 := Fin.ext h
    have hr : (⟨R.val % 1024, by omega⟩ : Fin 4096) = R := Fin.ext (by show R.val % 1024 = R.val; omega)
    rw [hn, if_pos (by omega)]
    show val_main_v5 (F := Ideal) x0 x5 x6 x7 _ = _
    rw [mlp_quarter0, hr]
  · have hn : (⟨R.val / 1024, by omega⟩ : Fin 4) = 1 := Fin.ext h
    have hr : (⟨1024 + R.val % 1024, by omega⟩ : Fin 4096) = R := Fin.ext (by show 1024 + R.val % 1024 = R.val; omega)
    rw [hn, if_neg (by omega)]
    show val_main_v11 (F := Ideal) x0 x2 x3 x4 _ = _
    rw [mlp_quarter1, hr]
  · have hn : (⟨R.val / 1024, by omega⟩ : Fin 4) = 2 := Fin.ext h
    have hr : (⟨2048 + R.val % 1024, by omega⟩ : Fin 4096) = R := Fin.ext (by show 2048 + R.val % 1024 = R.val; omega)
    rw [hn, if_pos (by omega)]
    show val_main_v17 (F := Ideal) x0 x5 x6 x7 _ = _
    rw [mlp_quarter2, hr]
  · have hn : (⟨R.val / 1024, by omega⟩ : Fin 4) = 3 := Fin.ext h
    have hr : (⟨3072 + R.val % 1024, by omega⟩ : Fin 4096) = R := Fin.ext (by show 3072 + R.val % 1024 = R.val; omega)
    rw [hn, if_neg (by omega)]
    show val_main_v23 (F := Ideal) x0 x2 x3 x4 _ = _
    rw [mlp_quarter3, hr]

/-- The reference program's result is the specification on its arguments 0, 2, 3, 4, 5, 6, 7. -/
theorem ref_is_G (x0 : (⟨S1x4096x4096, .f32⟩ : BufTy).Contents (Elt Ideal))
    (x2 x3 : (⟨S4096x11008, .f32⟩ : BufTy).Contents (Elt Ideal)) (x4 : (⟨S11008x4096, .f32⟩ : BufTy).Contents (Elt Ideal))
    (x5 x6 : (⟨S4096x11008, .f32⟩ : BufTy).Contents (Elt Ideal)) (x7 : (⟨S11008x4096, .f32⟩ : BufTy).Contents (Elt Ideal)) :
    Cert.ReferenceIdeal.Read.val_main_v24 (F := Ideal) x0 x2 x3 x4 x5 x6 x7 = Cert.Spec.G x0 x2 x3 x4 x5 x6 x7 := by
  funext i
  obtain ⟨a, R, q, rfl⟩ : ∃ (a : Fin 1) (R q : Fin 4096), i = ix3 a R q := ⟨i 0, i 1, i 2, eq_ix3 i⟩
  obtain rfl : a = 0 := Subsingleton.elim _ _
  rw [Cert.Spec.G_apply]
  exact ref_at x0 x2 x3 x4 x5 x6 x7 R q

end Cert.ReferenceIdeal.RefSpec

end
-- ==== Proof.lean ====
/-
  The certificate: a gated two-layer perceptron applied to 4096 token rows, with one weight triple on the even
  quarters of the rows and another on the odd quarters.

  The tiled program gathers the even and odd quarters into a two-sided stack, runs one grid of 2 sides x 4 row tiles x
  43 blocks of 256 hidden units, accumulating each output tile over the 43 blocks, and scatters the stack back. The
  reference takes the four quarters one after the other. Over the extended reals both results are, at row R and column
  q, the sum over all 11008 hidden units k of ((a_k · σ(a_k)) · b_k) · d(k, q), where a_k and b_k are the row's inner
  products with column k of the gate and up weights of R's quarter's parity and σ is the logistic function (the tiled
  program's logistic operation and the reference's 1 / (1 + exp(−a)) are one function there; the changes of float
  format are the identity). The tiled program's sum is taken block by block from a zero start; addition on the extended
  reals is associative and commutative, so the two sums agree without any finiteness of the inputs, and the
  precondition is not used.

  Frames: the two tiled programs (word level and idealized) by the region's per-point triples and the library's launch
  of a region between host lines; the reference by its run with the result dropped. The ideal pass rewrote nothing, so
  the idealization claim has no conjunct.
-/
import proofs.«131776_j90975997264556_1_alg».proof.Defs
import proofs.«131776_j90975997264556_1_alg».proof.Proof.Gen.Kernel
import proofs.«131776_j90975997264556_1_alg».proof.Proof.Gen.KernelIdeal
import proofs.«131776_j90975997264556_1_alg».proof.Proof.Gen.ReferenceIdeal
import proofs.«131776_j90975997264556_1_alg».proof.Proof.Gen.Pre_finite_inputs
import proofs.«131776_j90975997264556_1_alg».proof.Proof.KFrame
import proofs.«131776_j90975997264556_1_alg».proof.Proof.KIValue
import proofs.«131776_j90975997264556_1_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The word-level tiled program runs and keeps its arguments. -/
theorem frame_k : Cert.frame_Kernel (hKernel := Cert.Kernel.Gen.facts) (hPre_finite_inputs := Cert.Pre_finite_inputs.Gen.facts) := fun m ρ _ =>
  (θ_run Cert.Kernel.defs _ _).mono (fun _ h c => ⟨h c Cert.Kernel.main_arg0 (by simp only [Cert.Kernel.Fr.args, List.mem_cons, true_or, or_true]), h c Cert.Kernel.main_arg1 (by simp only [Cert.Kernel.Fr.args, List.mem_cons, true_or, or_true]), h c Cert.Kernel.main_arg2 (by simp only [Cert.Kernel.Fr.args, List.mem_cons, true_or, or_true]), h c Cert.Kernel.main_arg3 (by simp only [Cert.Kernel.Fr.args, List.mem_cons, true_or, or_true]), h c Cert.Kernel.main_arg4 (by simp only [Cert.Kernel.Fr.args, List.mem_cons, true_or, or_true]), h c Cert.Kernel.main_arg5 (by simp only [Cert.Kernel.Fr.args, List.mem_cons, true_or, or_true]), h c Cert.Kernel.main_arg6 (by simp only [Cert.Kernel.Fr.args, List.mem_cons, true_or, or_true]), h c Cert.Kernel.main_arg7 (by simp only [Cert.Kernel.Fr.args, List.mem_cons, true_or, or_true])⟩)
    (Cert.Kernel.Fr.frame (F := Bits) m ρ)

/-- The idealized tiled program runs and keeps its arguments. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => ⟨h c Cert.KernelIdeal.main_arg0 (by simp only [Cert.KernelIdeal.Fr.args, List.mem_cons, true_or, or_true]), h c Cert.KernelIdeal.main_arg1 (by simp only [Cert.KernelIdeal.Fr.args, List.mem_cons, true_or, or_true]), h c Cert.KernelIdeal.main_arg2 (by simp only [Cert.KernelIdeal.Fr.args, List.mem_cons, true_or, or_true]), h c Cert.KernelIdeal.main_arg3 (by simp only [Cert.KernelIdeal.Fr.args, List.mem_cons, true_or, or_true]), h c Cert.KernelIdeal.main_arg4 (by simp only [Cert.KernelIdeal.Fr.args, List.mem_cons, true_or, or_true]), h c Cert.KernelIdeal.main_arg5 (by simp only [Cert.KernelIdeal.Fr.args, List.mem_cons, true_or, or_true]), h c Cert.KernelIdeal.main_arg6 (by simp only [Cert.KernelIdeal.Fr.args, List.mem_cons, true_or, or_true]), h c Cert.KernelIdeal.main_arg7 (by simp only [Cert.KernelIdeal.Fr.args, List.mem_cons, true_or, or_true])⟩)
    (Cert.KernelIdeal.Fr.frame (F := Ideal) m ρ)

/-- The reference runs and keeps its arguments: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specified function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1, (h c).2 Cert.KernelIdeal.main_arg0 (by simp only [Cert.KernelIdeal.Fr.args, List.mem_cons, true_or, or_true]), (h c).2 Cert.KernelIdeal.main_arg1 (by simp only [Cert.KernelIdeal.Fr.args, List.mem_cons, true_or, or_true]), (h c).2 Cert.KernelIdeal.main_arg2 (by simp only [Cert.KernelIdeal.Fr.args, List.mem_cons, true_or, or_true]), (h c).2 Cert.KernelIdeal.main_arg3 (by simp only [Cert.KernelIdeal.Fr.args, List.mem_cons, true_or, or_true]), (h c).2 Cert.KernelIdeal.main_arg4 (by simp only [Cert.KernelIdeal.Fr.args, List.mem_cons, true_or, or_true]), (h c).2 Cert.KernelIdeal.main_arg5 (by simp only [Cert.KernelIdeal.Fr.args, List.mem_cons, true_or, or_true]), (h c).2 Cert.KernelIdeal.main_arg6 (by simp only [Cert.KernelIdeal.Fr.args, List.mem_cons, true_or, or_true]), (h c).2 Cert.KernelIdeal.main_arg7 (by simp only [Cert.KernelIdeal.Fr.args, List.mem_cons, true_or, or_true])⟩)
      (Cert.KernelIdeal.Val.run m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v24_eq, Cert.ReferenceIdeal.RefSpec.ref_is_G, e0, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
